-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S3x8192x128 : Shape := ⟨3, ![3, 8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S3x8192x128 : S_.BroadcastsInDim S3x8192x128 (![] : Fin 0 → Fin S3x8192x128.rank)
  reducesTo_S3x8192x128_S_d0_1_2 : S3x8192x128.ReducesTo [0, 1, 2] S_

variable [Facts]

def fn {F : FTy → Type} [FloatOps F] (main_arg0 : FVec F S8192x128 .f32) (main_arg1 : FVec F S8192x8192 .f32) (main_arg2 : FVec F S3x8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S3x8192x128 .f32 := Host.absf main_arg2
  let main_cst_2 : FVec F S_ .f32 := constant S_ .f32 0x7F800000#32
  let main_v10 : FVec F S3x8192x128 .f32 := broadcastInDim S3x8192x128 ![] bcast_S_S3x8192x128 main_cst_2
  let main_v11 : IVec S3x8192x128 1 := cmpf .olt main_v9 main_v10
  let main_c_3 : IVec S_ 1 := constantI S_ 1 1#1
  let main_v12 : IVec S_ 1 := (fun x v => Host.reduce IntOp.andi x v reducesTo_S3x8192x128_S_d0_1_2 h_S_) main_v11 main_c_3
  let main_v13 : IVec S_ 1 := andi main_v8 main_v12
  main_v13
-- ==== Kernel.lean ====
abbrev S8192x128 : Shape := ⟨2, ![8192, 128]⟩
abbrev S8192x8192 : Shape := ⟨2, ![8192, 8192]⟩
abbrev S3x8192x128 : Shape := ⟨3, ![3, 8192, 128]⟩
abbrev S_ : Shape := ⟨0, ![]⟩
abbrev S8192 : Shape := ⟨1, ![8192]⟩
abbrev S8192x1 : Shape := ⟨2, ![8192, 1]⟩
abbrev S3x8192 : Shape := ⟨2, ![3, 8192]⟩
abbrev S3x8192x1 : Shape := ⟨3, ![3, 8192, 1]⟩
abbrev S1024x128 : Shape := ⟨2, ![1024, 128]⟩
abbrev S1024x1024 : Shape := ⟨2, ![1024, 1024]⟩
abbrev S3x1024x128 : Shape := ⟨3, ![3, 1024, 128]⟩
abbrev S3x1024 : Shape := ⟨2, ![3, 1024]⟩
abbrev S1x1024x128 : Shape := ⟨3, ![1, 1024, 128]⟩
abbrev S128x1024 : Shape := ⟨2, ![128, 1024]⟩
abbrev S1024 : Shape := ⟨1, ![1024]⟩
abbrev S1x1024 : Shape := ⟨2, ![1, 1024]⟩

abbrev nBuf : Space → Nat
  | .hbm => 30
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S3x8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .bf16⟩
  | .hbm, ⟨14, _⟩ => ⟨S3x8192x128, .f32⟩
  | .hbm, ⟨15, _⟩ => ⟨S_, .f32⟩
  | .hbm, ⟨16, _⟩ => ⟨S3x8192, .f32⟩
  | .hbm, ⟨17, _⟩ => ⟨S3x8192x1, .f32⟩
  | .hbm, ⟨18, _⟩ => ⟨S3x8192x1, .f32⟩
  | .hbm, ⟨19, _⟩ => ⟨S_, .f32⟩
  | .hbm, ⟨20, _⟩ => ⟨S3x8192x1, .f32⟩
  | .hbm, ⟨21, _⟩ => ⟨S3x8192x1, .f32⟩
  | .hbm, ⟨22, _⟩ => ⟨S3x8192x128, .f32⟩
  | .hbm, ⟨23, _⟩ => ⟨S3x8192x128, .f32⟩
  | .hbm, ⟨24, _⟩ => ⟨S3x8192x128, .bf16⟩
  | .hbm, ⟨25, _⟩ => ⟨S3x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x1024, .f32⟩
  | .local _ .vmem, ⟨3, _⟩ => ⟨S1024x1024, .f32⟩
  | .local _ .vmem, ⟨4, _⟩ => ⟨S3x1024x128, .bf16⟩
  | .local _ .vmem, ⟨5, _⟩ => ⟨S3x1024x128, .bf16⟩
  | .local _ .vmem, ⟨6, _⟩ => ⟨S3x1024, .f32⟩
  | .local _ .vmem, ⟨7, _⟩ => ⟨S3x1024, .f32⟩
  | .local _ .vmem, ⟨8, _⟩ => ⟨S3x1024, .f32⟩
  | .local _ .vmem, ⟨9, _⟩ => ⟨S3x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond5 (i : grid0.Coords) : BitVec 1 :=
  let arg1 : BitVec 32 := BitVec.ofNat 32 (i 1).val
  let c7_i32 : BitVec 32 := 7#32
  let v65 : BitVec 1 := Scalar.cmpi .eq arg1 c7_i32
  let v66 : BitVec 32 := Scalar.extui v65
  let c0_i32_35 : BitVec 32 := 0#32
  let v67 : BitVec 1 := Scalar.cmpi .ne v66 c0_i32_35
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  reducesTo_S3x8192x128_S3x8192_d2 : S3x8192x128.ReducesTo [2] S3x8192
  bcast_S3x8192_S3x8192x1_0_1 : S3x8192.BroadcastsInDim S3x8192x1 (![0, 1] : Fin 2 → Fin S3x8192x1.rank)
  bcast_S_S3x8192x1 : S_.BroadcastsInDim S3x8192x1 (![] : Fin 0 → Fin S3x8192x1.rank)
  bcast_S3x8192x1_S3x8192x128_0_1_2 : S3x8192x1.BroadcastsInDim S3x8192x128 (![0, 1, 2] : Fin 3 → Fin S3x8192x128.rank)
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  iota_S1024x1024_d0_w32 : S1024x1024.Iotas .tc 32 [0]
  iota_S1024x1024_d1_w32 : S1024x1024.Iotas .tc 32 [1]
  inb_S3x1024x128_S1x1024x128_0_0_0 : ∀ a, (![0, 0, 0] : Fin 3 → Nat) a + S1x1024x128.size a ≤ S3x1024x128.size a
  h_S1x1024x128 : 0 < S1x1024x128.numel
  shapeCasts_S1x1024x128_S1024x128 : S1x1024x128.ShapeCasts S1024x128
  transposes_S1024x128_p1_0_S128x1024 : S1024x128.Transposes [1, 0] S128x1024
  reduces_S1024x1024_S1024 : S1024x1024.Reduces [1] S1024
  inb_S3x1024_S1x1024_0_0 : ∀ a, (![0, 0] : Fin 2 → Nat) a + S1x1024.size a ≤ S3x1024.size a
  h_S1x1024 : 0 < S1x1024.numel
  shapeCasts_S1x1024_S1024 : S1x1024.ShapeCasts S1024
  shapeCasts_S1024_S1x1024 : S1024.ShapeCasts S1x1024
  inb_S3x1024x128_S1x1024x128_1_0_0 : ∀ a, (![1, 0, 0] : Fin 3 → Nat) a + S1x1024x128.size a ≤ S3x1024x128.size a
  inb_S3x1024_S1x1024_1_0 : ∀ a, (![1, 0] : Fin 2 → Nat) a + S1x1024.size a ≤ S3x1024.size a
  inb_S3x1024x128_S1x1024x128_2_0_0 : ∀ a, (![2, 0, 0] : Fin 3 → Nat) a + S1x1024x128.size a ≤ S3x1024x128.size a
  inb_S3x1024_S1x1024_2_0 : ∀ a, (![2, 0] : Fin 2 → Nat) a + S1x1024.size a ≤ S3x1024.size a
  reducesTo_S3x8192_S_d0_1 : S3x8192.ReducesTo [0, 1] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x1024x128.size a ≤ S3x8192x128.size a
  hwx0_2 : ∀ i : grid0.Coords, EltTy.bits .bf16 = 32 ∨ (Rect.block (s := S3x8192x128) S3x1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x1024.size a ≤ S3x8192.size a
  hwx0_3 : ∀ i : grid0.Coords, EltTy.bits .f32 = 32 ∨ (Rect.block (s := S3x8192) S3x1024.size (cc0_transform_3 i) (hinb0_3 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v5) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S3x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S3x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond5 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S3x8192x128 : Shape := ⟨3, ![3, 8192, 128]⟩
abbrev S_ : Shape := ⟨0, ![]⟩
abbrev S8192 : Shape := ⟨1, ![8192]⟩
abbrev S8192x1 : Shape := ⟨2, ![8192, 1]⟩
abbrev S3x8192 : Shape := ⟨2, ![3, 8192]⟩
abbrev S3x8192x1 : Shape := ⟨3, ![3, 8192, 1]⟩
abbrev S3x8192x8192 : Shape := ⟨3, ![3, 8192, 8192]⟩
abbrev S8192x2 : Shape := ⟨2, ![8192, 2]⟩
abbrev S1x8192x8192 : Shape := ⟨3, ![1, 8192, 8192]⟩

abbrev nBuf : Space → Nat
  | .hbm => 70
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S3x8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S3x8192x128, .f32⟩
  | .hbm, ⟨14, _⟩ => ⟨S_, .f32⟩
  | .hbm, ⟨15, _⟩ => ⟨S3x8192, .f32⟩
  | .hbm, ⟨16, _⟩ => ⟨S3x8192x1, .f32⟩
  | .hbm, ⟨17, _⟩ => ⟨S3x8192x1, .f32⟩
  | .hbm, ⟨18, _⟩ => ⟨S_, .f32⟩
  | .hbm, ⟨19, _⟩ => ⟨S3x8192x1, .f32⟩
  | .hbm, ⟨20, _⟩ => ⟨S3x8192x1, .f32⟩
  | .hbm, ⟨21, _⟩ => ⟨S3x8192x128, .f32⟩
  | .hbm, ⟨22, _⟩ => ⟨S3x8192x128, .f32⟩
  | .hbm, ⟨23, _⟩ => ⟨S3x8192x8192, .f32⟩
  | .hbm, ⟨24, _⟩ => ⟨S3x8192x8192, .f32⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S8192x1, .i32⟩
  | .hbm, ⟨43, _⟩ => ⟨S8192x2, .i32⟩
  | .hbm, ⟨44, _⟩ => ⟨S3x8192, .f32⟩
  | .hbm, ⟨45, _⟩ => ⟨S_, .f32⟩
  | .hbm, ⟨46, _⟩ => ⟨S3x8192, .f32⟩
  | .hbm, ⟨47, _⟩ => ⟨S3x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S3x8192x8192, .f32⟩
  | .hbm, ⟨53, _⟩ => ⟨S3x8192x8192, .f32⟩
  | .hbm, ⟨54, _⟩ => ⟨S3x8192x8192, .f32⟩
  | .hbm, ⟨55, _⟩ => ⟨S1x8192x8192, .f32⟩
  | .hbm, ⟨56, _⟩ => ⟨S3x8192x8192, .f32⟩
  | .hbm, ⟨57, _⟩ => ⟨S3x8192x8192, .f32⟩
  | .hbm, ⟨58, _⟩ => ⟨S_, .f32⟩
  | .hbm, ⟨59, _⟩ => ⟨S3x8192, .f32⟩
  | .hbm, ⟨60, _⟩ => ⟨S_, .f32⟩
  | .hbm, ⟨61, _⟩ => ⟨S3x8192, .f32⟩
  | .hbm, ⟨62, _⟩ => ⟨S3x8192, .f32⟩
  | .hbm, ⟨63, _⟩ => ⟨S3x8192, .f32⟩
  | .hbm, ⟨64, _⟩ => ⟨S3x8192, .f32⟩
  | .hbm, ⟨65, _⟩ => ⟨S3x8192, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call2_v0 : Ref sig .tc := ⟨.hbm, 25, rfl⟩
abbrev main_call2_v1 : Ref sig .tc := ⟨.hbm, 26, rfl⟩
abbrev main_call2_c : Ref sig .tc := ⟨.hbm, 27, rfl⟩
abbrev main_call2_v2 : Ref sig .tc := ⟨.hbm, 28, rfl⟩
abbrev main_call2_v3 : Ref sig .tc := ⟨.hbm, 29, rfl⟩
abbrev main_call2_c_0 : Ref sig .tc := ⟨.hbm, 30, rfl⟩
abbrev main_call2_v4 : Ref sig .tc := ⟨.hbm, 31, rfl⟩
abbrev main_call2_v5 : Ref sig .tc := ⟨.hbm, 32, rfl⟩
abbrev main_call2_v6 : Ref sig .tc := ⟨.hbm, 33, rfl⟩
abbrev main_call2_c_1 : Ref sig .tc := ⟨.hbm, 34, rfl⟩
abbrev main_call2_v7 : Ref sig .tc := ⟨.hbm, 35, rfl⟩
abbrev main_call2_v8 : Ref sig .tc := ⟨.hbm, 36, rfl⟩
abbrev main_call2_c_2 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_v12 : Ref sig .tc := ⟨.hbm, 41, rfl⟩
abbrev main_call2_v13 : Ref sig .tc := ⟨.hbm, 42, rfl⟩
abbrev main_call2_v14 : Ref sig .tc := ⟨.hbm, 43, rfl⟩
abbrev main_v12 : Ref sig .tc := ⟨.hbm, 44, rfl⟩
abbrev main_cst_1 : Ref sig .tc := ⟨.hbm, 45, rfl⟩
abbrev main_v13 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_cst_3 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_4 : Ref sig .tc := ⟨.hbm, 58, rfl⟩
abbrev main_v23 : Ref sig .tc := ⟨.hbm, 59, rfl⟩
abbrev main_cst_5 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_6 : Ref sig .tc := ⟨.hbm, 66, rfl⟩
abbrev main_v29 : Ref sig .tc := ⟨.hbm, 67, rfl⟩
abbrev main_cst_7 : Ref sig .tc := ⟨.hbm, 68, rfl⟩
abbrev main_v30 : Ref sig .tc := ⟨.hbm, 69, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  reducesTo_S3x8192x128_S3x8192_d2 : S3x8192x128.ReducesTo [2] S3x8192
  bcast_S3x8192_S3x8192x1_0_1 : S3x8192.BroadcastsInDim S3x8192x1 (![0, 1] : Fin 2 → Fin S3x8192x1.rank)
  bcast_S_S3x8192x1 : S_.BroadcastsInDim S3x8192x1 (![] : Fin 0 → Fin S3x8192x1.rank)
  bcast_S3x8192x1_S3x8192x128_0_1_2 : S3x8192x1.BroadcastsInDim S3x8192x128 (![0, 1, 2] : Fin 3 → Fin S3x8192x128.rank)
  transposes_S3x8192x8192_S3x8192x8192_0_2_1 : S3x8192x8192.Transposes [0, 2, 1] S3x8192x8192
  bcast_S_S8192 : S_.BroadcastsInDim S8192 (![] : Fin 0 → Fin S8192.rank)
  concatenates_S8192x1_S8192x1_S8192x2_d1 : Shape.Concatenates [S8192x1, S8192x1] S8192x2 1
  bcast_S_S3x8192 : S_.BroadcastsInDim S3x8192 (![] : Fin 0 → Fin S3x8192.rank)
  bcast_S_S8192x8192 : S_.BroadcastsInDim S8192x8192 (![] : Fin 0 → Fin S8192x8192.rank)
  bcast_S_S3x8192x8192 : S_.BroadcastsInDim S3x8192x8192 (![] : Fin 0 → Fin S3x8192x8192.rank)
  bcast_S8192x8192_S1x8192x8192_1_2 : S8192x8192.BroadcastsInDim S1x8192x8192 (![1, 2] : Fin 2 → Fin S1x8192x8192.rank)
  bcast_S1x8192x8192_S3x8192x8192_0_1_2 : S1x8192x8192.BroadcastsInDim S3x8192x8192 (![0, 1, 2] : Fin 3 → Fin S3x8192x8192.rank)
  reducesTo_S3x8192x8192_S3x8192_d2 : S3x8192x8192.ReducesTo [2] S3x8192
  reducesTo_S3x8192_S_d0_1 : S3x8192.ReducesTo [0, 1] S_
  dot_S3x8192x128_S8192x128_S3x8192x8192_2_1_01_0_n_n_wf : DotDims.WF S3x8192x128 S8192x128 S3x8192x8192 [2] [1] [0, 1] [0] [] []
  gather_S3x8192x8192_S8192x2_S3x8192_0_12_n_n_12_1_311_wf : GatherDims.WF S3x8192x8192 S8192x2 S3x8192 [0] [1, 2] [] [1, 2] [] 1 ![3, 1, 1]

variable [Facts₀]

def dot_S3x8192x128_S8192x128_S3x8192x8192_2_1_01_0_n_n : DotDims S3x8192x128 S8192x128 S3x8192x8192 where
  lhsContracting := [2]
  rhsContracting := [1]
  lhsNonContracting := [0, 1]
  rhsNonContracting := [0]
  lhsBatch := []
  rhsBatch := []
  wf := dot_S3x8192x128_S8192x128_S3x8192x8192_2_1_01_0_n_n_wf
def gather_S3x8192x8192_S8192x2_S3x8192_0_12_n_n_12_1_311 : GatherDims S3x8192x8192 S8192x2 S3x8192 where
  offsetDims := [0]
  collapsedSliceDims := [1, 2]
  operandBatchingDims := []
  startIndicesBatchingDims := []
  startIndexMap := [1, 2]
  indexVectorDim := 1
  sliceSizes := ![3, 1, 1]
  wf := gather_S3x8192x8192_S8192x2_S3x8192_0_12_n_n_12_1_311_wf

class Facts : Prop extends Facts₀ where

variable [Facts]
-- ==== Proof.Spec.lean ====
/-
  The loss both programs compute, as one function of the two normalised feature arrays and the similarity matrix, over
  the extended reals; the tile quantities the kernel accumulates; and the laws that join them.

  For a consensus row `n`, a view `v` and a view row `m` the score is `2 · ∑_d hc[n,d] · hv[v,m,d]`; a row's denominator is
  `∑_m (1 − s[n,m]) · exp(score v n m)`, and the loss entry is `0 − (score v n n − log (max denominator 1e-9))`.
  The kernel walks the columns in eight tiles of 1024: a denominator is the sum, tile after tile, of the tile's own sum.
-/
import Idealize.ShloMosaic.PureOps.Ideal.Laws
import Idealize.ShloMosaic.Lib.ValueIdx

noncomputable section

namespace Cert.Sgcl

open Idealize.ShloMosaic Idealize.ShloMosaic.ValueIdx

/-! ## The constants -/

/-- The pattern of `2.0`. -/
abbrev two : EReal := Ideal.ofBits .f32 0x40000000#32
/-- The pattern of `1.0`. -/
abbrev one : EReal := Ideal.ofBits .f32 0x3F800000#32
/-- The pattern of the floor under the denominator (the f32 nearest `1e-9`): the same word on both sides, never evaluated. -/
abbrev floorEps : EReal := Ideal.ofBits .f32 0x3089705F#32

theorem two_eq : two = ((2 : ℝ) : EReal) := by
  simp [two, Ideal.ofBits, Ideal.ieee, -EReal.coe_mul]; norm_num

theorem half_eq : Ideal.ofBits .f32 0x3F000000#32 = (((1 / 2 : ℝ)) : EReal) := by
  simp [Ideal.ofBits, Ideal.ieee, -EReal.coe_mul]; norm_num

/-- Dividing by the pattern of `0.5` is multiplying by the pattern of `2.0`, on every extended real. -/
theorem div_half (x : EReal) : Ideal.div x (Ideal.ofBits .f32 0x3F000000#32) = x * two := by
  rw [half_eq, Ideal.div_coe (by norm_num : (1 / 2 : ℝ) ≠ 0), two_eq]
  norm_num

/-! ## One tile -/

/-- The score of row `r` of a consensus tile against row `c` of view `v`'s tile, doubled. -/
def simBlk (x0 : (⟨2, ![1024, 128]⟩ : Shape).Idx → EReal) (x2 : (⟨3, ![3, 1024, 128]⟩ : Shape).Idx → EReal)
    (v : Fin 3) (r c : Fin 1024) : EReal :=
  (∑ d : Fin 128, x0 (ix2 r d) * x2 (ix3 v c d)) * two

/-- What one tile adds to row `r`'s denominator for view `v`. -/
def contribBlk (x0 : (⟨2, ![1024, 128]⟩ : Shape).Idx → EReal) (x1 : (⟨2, ![1024, 1024]⟩ : Shape).Idx → EReal)
    (x2 : (⟨3, ![3, 1024, 128]⟩ : Shape).Idx → EReal) (v : Fin 3) (r : Fin 1024) : EReal :=
  ∑ c : Fin 1024, (one - x1 (ix2 r c)) * Ideal.exp (simBlk x0 x2 v r c)

/-- The loss entry from a denominator `d` and a positive score `p`. -/
def lossOf (d p : EReal) : EReal := 0 - (p - Ideal.log (max d floorEps))

/-! ## The whole arrays -/

/-- Column `c` of tile `j` (tiles counted modulo eight, so that every natural number names one). -/
def at8 (j : ℕ) (c : Fin 1024) : Fin 8192 := ⟨(j % 8) * 1024 + c.val, by have := c.isLt; have := Nat.mod_lt j (by decide : 0 < 8); omega⟩

/-- The doubled score of consensus row `n` against row `m` of view `v`. -/
def sim (hc : (⟨2, ![8192, 128]⟩ : Shape).Idx → EReal) (hv : (⟨3, ![3, 8192, 128]⟩ : Shape).Idx → EReal)
    (v : Fin 3) (n m : Fin 8192) : EReal :=
  (∑ d : Fin 128, hc (ix2 n d) * hv (ix3 v m d)) * two

/-- One term of row `n`'s denominator. -/
def term (hc : (⟨2, ![8192, 128]⟩ : Shape).Idx → EReal) (s : (⟨2, ![8192, 8192]⟩ : Shape).Idx → EReal)
    (hv : (⟨3, ![3, 8192, 128]⟩ : Shape).Idx → EReal) (v : Fin 3) (n m : Fin 8192) : EReal :=
  (one - s (ix2 n m)) * Ideal.exp (sim hc hv v n m)

/-- The loss array. -/
def loss (hc : (⟨2, ![8192, 128]⟩ : Shape).Idx → EReal) (s : (⟨2, ![8192, 8192]⟩ : Shape).Idx → EReal)
    (hv : (⟨3, ![3, 8192, 128]⟩ : Shape).Idx → EReal) : (⟨2, ![3, 8192]⟩ : Shape).Idx → EReal :=
  fun i => lossOf (∑ m : Fin 8192, term hc s hv (i 0) (i 1) m) (sim hc hv (i 0) (i 1) (i 1))

/-! ## The laws -/

/-- Eight tiles of 1024 columns are the 8192 columns: a sum over the columns is the sum over the tiles of each tile's sum. -/
theorem sum_tiles {M : Type*} [AddCommMonoid M] (f : Fin 8192 → M) :
    ∑ j ∈ Finset.range 8, ∑ c : Fin 1024, f (at8 j c) = ∑ m : Fin 8192, f m := by
  rw [← Fin.sum_univ_eq_sum_range (fun j => ∑ c : Fin 1024, f (at8 j c)) 8, ← Fintype.sum_prod_type']
  refine Fintype.sum_equiv (finProdFinEquiv (m := 8) (n := 1024)) _ _ fun p => congrArg f (Fin.ext ?_)
  show (p.1.val % 8) * 1024 + p.2.val = p.2.val + 1024 * p.1.val
  have := p.1.isLt
  omega

/-- A sum that keeps only the diagonal term. -/
theorem sum_diag (r : Fin 1024) (x : Fin 1024 → EReal) : ∑ c : Fin 1024, (if r = c then x c else 0) = x r := by
  rw [Finset.sum_ite_eq]; simp

end Cert.Sgcl

end
-- ==== Proof.Blocks.lean ====
/-
  The tiles the pipeline hands the body, read inside the whole arrays.

  Grid point `t` is row tile `t / 8`, column tile `t % 8`. The consensus tile at `t` is rows `1024 · (t / 8) + r` of the
  normalised consensus array; the similarity tile is those rows at columns `1024 · (t % 8) + c`; the views' tile is rows
  `1024 · (t % 8) + c` of every view.
-/
import proofs.«100503_j34299608826247_1_alg».proof.Proof.Gen.KernelIdeal.Frame
import proofs.«100503_j34299608826247_1_alg».proof.Proof.Spec
import Idealize.ShloMosaic.Lib.Pipeline.Value
import Idealize.ShloMosaic.Lib.ValueIdx

set_option maxRecDepth 16384

noncomputable section

namespace Cert.KernelIdeal.Blk

open Idealize.ShloMosaic Idealize.ShloMosaic.TcCoe Idealize.ShloMosaic.ValueIdx Idealize.SL.Sem
open Cert.KernelIdeal Cert.KernelIdeal.Gen Cert.Sgcl

variable (m : (ℓ : Loc nD τ sig) → Buf (Elt Ideal) ℓ)

/-- The normalised consensus array, the similarity matrix and the normalised views, as the region finds them. -/
abbrev hcArr (c : Dev nD) : Vec Ideal S8192x128 .bf16 := V m c main_v5
abbrev sArr (c : Dev nD) : Vec Ideal S8192x8192 .f32 := V m c main_arg1
abbrev hvArr (c : Dev nD) : Vec Ideal S3x8192x128 .bf16 := V m c main_v11

/-- The three input tiles at a grid point, at their literal shapes. -/
abbrev blk0 (c : Dev nD) (t : Fin cfg0.N) : Vec Ideal S1024x128 .bf16 := iblk m c 0 t
abbrev blk1 (c : Dev nD) (t : Fin cfg0.N) : Vec Ideal S1024x1024 .f32 := iblk m c 1 t
abbrev blk2 (c : Dev nD) (t : Fin cfg0.N) : Vec Ideal S3x1024x128 .bf16 := iblk m c 2 t

/-- Row `r` of the row tile of grid point `t`, as a row of the whole arrays. -/
def rowOf (t : Fin cfg0.N) (r : Fin 1024) : Fin 8192 :=
  ⟨(t.val / 8) * 1024 + r.val, by have := t.isLt; have hN : cfg0.N = 64 := N_0; have := r.isLt; omega⟩

theorem blk0_at (c : Dev nD) (t : Fin cfg0.N) (r : Fin 1024) (d : Fin 128) :
    blk0 m c t (ix2 r d) = hcArr m c (ix2 (rowOf t r) d) := by
  have hi : ∀ t : Fin cfg0.N, win0_0.index t 0 = t.val / 8 ∧ win0_0.index t 1 = 0 :=
    (by decide +kernel : ∀ t : Fin grid0.N, _)
  show ((cfg0.win 0).blk t).view.read (Elt Ideal) (V m c main_v5) (ix2 r d) = _
  rw [View.read_apply]
  show V m c main_v5 _ = V m c main_v5 _
  refine congrArg (V m c main_v5) ?_
  funext a
  apply Fin.ext
  match a with
  | ⟨0, _⟩ =>
    show win0_0.index t 0 * 1024 + 1 * r.val = t.val / 8 * 1024 + r.val
    rw [(hi t).1]; omega
  | ⟨1, _⟩ =>
    show win0_0.index t 1 * 128 + 1 * d.val = d.val
    rw [(hi t).2]; omega

theorem blk1_at (c : Dev nD) (t : Fin cfg0.N) (r cc : Fin 1024) :
    blk1 m c t (ix2 r cc) = sArr m c (ix2 (rowOf t r) (at8 t.val cc)) := by
  have hi : ∀ t : Fin cfg0.N, win0_1.index t 0 = t.val / 8 ∧ win0_1.index t 1 = t.val % 8 :=
    (by decide +kernel : ∀ t : Fin grid0.N, _)
  show ((cfg0.win 1).blk t).view.read (Elt Ideal) (V m c main_arg1) (ix2 r cc) = _
  rw [View.read_apply]
  show V m c main_arg1 _ = V m c main_arg1 _
  refine congrArg (V m c main_arg1) ?_
  funext a
  apply Fin.ext
  match a with
  | ⟨0, _⟩ =>
    show win0_1.index t 0 * 1024 + 1 * r.val = t.val / 8 * 1024 + r.val
    rw [(hi t).1]; omega
  | ⟨1, _⟩ =>
    show win0_1.index t 1 * 1024 + 1 * cc.val = t.val % 8 * 1024 + cc.val
    rw [(hi t).2]; omega

theorem blk2_at (c : Dev nD) (t : Fin cfg0.N) (v : Fin 3) (cc : Fin 1024) (d : Fin 128) :
    blk2 m c t (ix3 v cc d) = hvArr m c (ix3 v (at8 t.val cc) d) := by
  have hi : ∀ t : Fin cfg0.N, win0_2.index t 0 = 0 ∧ win0_2.index t 1 = t.val % 8 ∧ win0_2.index t 2 = 0 :=
    (by decide +kernel : ∀ t : Fin grid0.N, _)
  show ((cfg0.win 2).blk t).view.read (Elt Ideal) (V m c main_v11) (ix3 v cc d) = _
  rw [View.read_apply]
  show V m c main_v11 _ = V m c main_v11 _
  refine congrArg (V m c main_v11) ?_
  funext a
  apply Fin.ext
  match a with
  | ⟨0, _⟩ =>
    show win0_2.index t 0 * 3 + 1 * v.val = v.val
    rw [(hi t).1]; omega
  | ⟨1, _⟩ =>
    show win0_2.index t 1 * 1024 + 1 * cc.val = t.val % 8 * 1024 + cc.val
    rw [(hi t).2.1]; omega
  | ⟨2, _⟩ =>
    show win0_2.index t 2 * 128 + 1 * d.val = d.val
    rw [(hi t).2.2]; omega

end Cert.KernelIdeal.Blk

end
-- ==== Proof.Cover.lean ====
/-
  From the tiles written back to the whole result array.

  The result window's tile is written back at the last column tile of each row tile (`t % 8 = 7`), to columns
  `1024 · (t / 8) + r` of the [3, 8192] result: the eight write-backs tile the array, so if each of them holds the
  entries of one function `G` of the array index, the array ends as `G`.
-/
import proofs.«100503_j34299608826247_1_alg».proof.Proof.Gen.KernelIdeal.Frame
import proofs.«100503_j34299608826247_1_alg».proof.Proof.Blocks
import proofs.«100503_j34299608826247_1_alg».proof.Proof.Spec
import Idealize.ShloMosaic.Lib.Pipeline.Value
import Idealize.ShloMosaic.Lib.ValueIdx

set_option maxRecDepth 16384

noncomputable section

namespace Cert.KernelIdeal.Cover

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blk Cert.Sgcl

variable (m : (ℓ : Loc nD τ sig) → Buf (Elt Ideal) ℓ)

/-- If at every write-back point the result tile holds `G` at its rows' entries, the result array ends as `G`. -/
theorem final_of (c : Dev nD) (G : Vec Ideal S3x8192 .f32)
    (hG : ∀ t : Fin cfg0.N, t.val % 8 = 7 → ∀ (v : Fin 3) (r : Fin 1024),
      (outsAt0 m c t.val t.isLt).1 (ix2 v r) = G (ix2 v (rowOf t r))) :
    (dats m 0 c).arrAt 3 cfg0.N = G := by
  have hN : cfg0.N = 64 := N_0
  have hi : ∀ t : Fin cfg0.N, win0_3.index t 0 = 0 ∧ win0_3.index t 1 = t.val / 8 :=
    (by decide +kernel : ∀ t : Fin grid0.N, _)
  -- A write-back point's tile sits at rows `v`, columns `1024 · (t / 8) + r` of the result: there it reads `G`.
  have flushed_eq : ∀ t, (cfg0.win 3).flush t = true →
      (dats m 0 c).flushed 3 t = ((cfg0.win 3).blk t).view.read (Elt Ideal) G := by
    intro t hf
    have h7 : t.val % 8 = 7 := (flush0_3 t).mp hf
    show (cfg0.win 3).cut (grid0.coords t) ((dats m 0 c).after 3 t) = _
    rw [after0_3]
    refine funext fun (y : S3x1024.Idx) => ?_
    rw [View.read_apply]
    show (outsAt0 m c t.val t.isLt).1 y = G (((cfg0.win 3).blk t).view.emb y)
    obtain ⟨v, r, rfl⟩ : ∃ (v : Fin 3) (r : Fin 1024), y = ix2 v r := ⟨y 0, y 1, eq_ix2 y⟩
    rw [hG t h7 v r]
    refine congrArg G ?_
    funext a
    apply Fin.ext
    match a with
    | ⟨0, _⟩ =>
      show v.val = win0_3.index t 0 * 3 + 1 * v.val
      rw [(hi t).1]; omega
    | ⟨1, _⟩ =>
      show t.val / 8 * 1024 + r.val = win0_3.index t 1 * 1024 + 1 * r.val
      rw [(hi t).2]; omega
  -- Entry `(v, n)` lies in the tile written back at the last column tile of row tile `n / 1024`: `t = 8 · (n / 1024) + 7`.
  refine (dats m 0 c).arrAt_eq_of_cover 3 G flushed_eq fun i => ?_
  have h0 : (i 0 : Nat) < 3 := (i 0).isLt
  have h1 : (i 1 : Nat) < 8192 := (i 1).isLt
  have ht : 8 * ((i 1 : Nat) / 1024) + 7 < cfg0.N := by omega
  refine ⟨⟨8 * ((i 1 : Nat) / 1024) + 7, ht⟩, (flush0_3 _).mpr (by show (8 * ((i 1 : Nat) / 1024) + 7) % 8 = 7; omega), ?_⟩
  generalize htt : (⟨8 * ((i 1 : Nat) / 1024) + 7, ht⟩ : Fin cfg0.N) = t
  have htv : t.val = 8 * ((i 1 : Nat) / 1024) + 7 := by rw [← htt]
  show i ∈ ((View.whole main_v12).slice (win0_3.rect t)).set
  rw [View.set_slice_whole, Rect.mem_set_unit]
  intro a
  match a with
  | ⟨0, _⟩ =>
    show win0_3.index t 0 * 3 ≤ (i 0 : Nat) ∧ (i 0 : Nat) < win0_3.index t 0 * 3 + 3
    rw [(hi t).1]; omega
  | ⟨1, _⟩ =>
    show win0_3.index t 1 * 1024 ≤ (i 1 : Nat) ∧ (i 1 : Nat) < win0_3.index t 1 * 1024 + 1024
    rw [(hi t).2]; omega

end Cert.KernelIdeal.Cover

end
-- ==== Proof.HostOps.lean ====
/-
  The host operations around the kernel region.

  Before the region the host normalises the consensus rows and every view's rows: each row divided by the larger of its
  Euclidean norm and a floor, then re-typed to bf16 — one pure function of the argument each. After the region it sums the
  [3, 8192] result over both axes from zero and divides by 24576.
-/
import proofs.«100503_j34299608826247_1_alg».proof.Proof.Gen.KernelIdeal.Frame
import Idealize.ShloMosaic.Lib.Pipeline.Value
import Idealize.ShloMosaic.Lib.StableHlo.Run

set_option maxRecDepth 16384

noncomputable section

namespace Cert.KernelIdeal.HostOps

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ)

/-- The consensus rows, each over the larger of its norm and the floor. -/
def normC (x : FVec F S8192x128 .f32) : FVec F S8192x128 .f32 :=
  Host.divf (F := F) x (broadcastInDim S8192x128 ![0, 1] bcast_S8192x1_S8192x128_0_1
    (maximumf (Host.sqrt (broadcastInDim S8192x1 ![0] bcast_S8192_S8192x1_0
      (Host.reduceAdd (F := F) (mulf x x) (constant (F := F) S_ .f32 0x00000000#32) reducesTo_S8192x128_S8192_d1 h_S_)))
      (broadcastInDim S8192x1 ![] bcast_S_S8192x1 (constant (F := F) S_ .f32 0x2B8CBCCC#32))))

/-- Every view's rows, each over the larger of its norm and the floor. -/
def normV (x : FVec F S3x8192x128 .f32) : FVec F S3x8192x128 .f32 :=
  Host.divf (F := F) x (broadcastInDim S3x8192x128 ![0, 1, 2] bcast_S3x8192x1_S3x8192x128_0_1_2
    (maximumf (Host.sqrt (broadcastInDim S3x8192x1 ![0, 1] bcast_S3x8192_S3x8192x1_0_1
      (Host.reduceAdd (F := F) (mulf x x) (constant (F := F) S_ .f32 0x00000000#32) reducesTo_S3x8192x128_S3x8192_d2 h_S_)))
      (broadcastInDim S3x8192x1 ![] bcast_S_S3x8192x1 (constant (F := F) S_ .f32 0x2B8CBCCC#32))))

/-- The mean the host takes of the result array: its sum over both axes from zero, over 24576. -/
def meanOf (L : FVec F S3x8192 .f32) : FVec F S_ .f32 :=
  Host.divf (F := F) (Host.reduceAdd (F := F) L (constant (F := F) S_ .f32 0x00000000#32) reducesTo_S3x8192_S_d0_1 h_S_)
    (constant (F := F) S_ .f32 0x46C00000#32)

/-- The region finds the consensus array normalised and re-typed. -/
theorem V_v5 (c : Dev nD) :
    V m c main_v5 = truncf .bf16 (normC (m ((c : Thread nD τ).loc main_arg0))) bitsLt_bf16_f32 := by
  -- the operations in order: each result read at its own buffer is its function of what its arguments held
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The region finds the views normalised and re-typed. -/
theorem V_v11 (c : Dev nD) :
    V m c main_v11 = truncf .bf16 (normV (m ((c : Thread nD τ).loc main_arg2))) bitsLt_bf16_f32 := by
  -- the same composition for the views: the consensus operations before it write none of its buffers
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- After the region the result buffer holds the mean of whatever the run left in the result array. -/
theorem tail_v14 (dats : (p : Fin 1) → (c : Dev nD) → Dat τ (Elt F) Unit ℕ (UR sig nD τ) ℕ (cfgs p) c) (c : Dev nD) :
    Pipeline.afterTail₀ cfgs dats 0 (V0 m) [hostOps1] c main_v14 = meanOf ((dats 0 c).arrAt 3 cfg0.N) := by
  unfold Pipeline.afterTail₀
  show StableHlo.after hostOps1 _ (Proc.devRef .tc main_v14) = _
  after_results
  -- the sum reads the result array's own buffer, which after the region holds what the run left in that array
  have h := Pipeline.withArrays_arr spec0 launch0.win.arr_inj c (V0 m c) (fun w => (dats 0 c).arrAt w (cfgs 0).N) 3
  unfold meanOf
  exact congrArg (fun L : FVec F S3x8192 .f32 =>
    Host.divf (F := F) (Host.reduceAdd (F := F) L (constant (F := F) S_ .f32 0x00000000#32) reducesTo_S3x8192_S_d0_1 h_S_)
      (constant (F := F) S_ .f32 0x46C00000#32)) h

end Cert.KernelIdeal.HostOps

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Payload.lean ====
/-
  The kernel body's pure values read at one entry, over the extended reals.

  Every stored value of the body is a function of the tiles it loads. Read at an entry: a tile product is the sum over the
  128 features of the products of the two rows; the doubled score is that times two; a denominator row adds to what the
  accumulator held the sum, over the tile's 1024 columns, of `(1 − s) · exp(score)`; the diagonal pick is the row sum of
  the scores kept only where row and column agree, which is the diagonal score; the final value is
  `0 − (p − log (max d 1e-9))`.
-/
import proofs.«100503_j34299608826247_1_alg».proof.Proof.Gen.KernelIdeal.Skeleton
import proofs.«100503_j34299608826247_1_alg».proof.Proof.Spec
import proofs.«100503_j34299608826247_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.Sgcl

/-- Row `r` of a consensus tile against row `c` of ONE view's tile (a [1, 1024, 128] slab): the sum over the features. -/
def dotBlk (x0 : Vec Ideal S1024x128 .bf16) (y : Vec Ideal S1x1024x128 .bf16) (r c : Fin 1024) : EReal :=
  ∑ d : Fin 128, x0 (ix2 r d) * y (ix3 (0 : Fin 1) c d)

/-- The reset value is zero at every entry. -/
theorem pay1_at (v : Fin 3) (r : Fin 1024) : (k0_pay1 (F := Ideal)) (ix2 v r) = 0 := by
  unfold k0_pay1
  rw [shapeCast_self]
  exact Ideal.ofBits_zero_f32

/-- The consensus tile passes through its same-shape cast unchanged. -/
theorem pay2_eq (x0 : Vec Ideal S1024x128 .bf16) : k0_pay2 x0 = x0 := by
  unfold k0_pay2
  exact shapeCast_self _ _

/-- The weight `1 − s`. -/
theorem pay3_at (x1 : Vec Ideal S1024x1024 .f32) (r c : Fin 1024) : k0_pay3 x1 (ix2 r c) = one - x1 (ix2 r c) := by
  rfl

/-- Two numbers below 1024, as 32-bit words, are the same word only if they are the same number. -/
theorem ofNat_inj_small {a b : Nat} (ha : a < 1024) (hb : b < 1024) (h : BitVec.ofNat 32 a = BitVec.ofNat 32 b) : a = b := by
  have e := congrArg BitVec.toNat h
  simp only [BitVec.toNat_ofNat] at e
  omega

/-- The diagonal mask: set exactly where row and column agree. -/
theorem pay4_at (r c : Fin 1024) : k0_pay4 (ix2 r c) = if r = c then 1#1 else 0#1 := by
  unfold k0_pay4
  show IntOp.cmpi .eq (iota .tc S1024x1024 32 [0] iota_S1024x1024_d0_w32 (ix2 r c))
      (iota .tc S1024x1024 32 [1] iota_S1024x1024_d1_w32 (ix2 r c)) = _
  rw [iota_single_apply, iota_single_apply]
  show BitVec.ofBool (BitVec.ofNat 32 r.val == BitVec.ofNat 32 c.val) = _
  by_cases h : r = c
  · rw [if_pos h, h, beq_self_eq_true]; rfl
  · rw [if_neg h]
    have hne : ¬ BitVec.ofNat 32 r.val = BitVec.ofNat 32 c.val := fun e => h (Fin.ext (ofNat_inj_small r.isLt c.isLt e))
    rw [beq_eq_false_iff_ne.2 hne]; rfl

/-- A [1, 1024, 128] slab viewed [1024, 128] reads (0, c, k) at (c, k). -/
theorem drop3_at (y : Vec Ideal S1x1024x128 .bf16) (c : Fin 1024) (k : Fin 128) :
    (shapeCast S1024x128 y shapeCasts_S1x1024x128_S1024x128 : FVec Ideal S1024x128 .bf16) (ix2 c k) = y (ix3 (0 : Fin 1) c k) := by
  refine (shapeCast_dropUnit_apply ![1024, 128] y shapeCasts_S1x1024x128_S1024x128 (ix2 c k)).trans ?_
  congr 1
  funext a
  match a with
  | ⟨0, _⟩ => rfl
  | ⟨1, _⟩ => rfl
  | ⟨2, _⟩ => rfl

/-- A [1, 1024] row viewed [1024] reads (0, r) at r. -/
theorem drop2_at (a : Vec Ideal S1x1024 .f32) (r : Fin 1024) :
    (shapeCast S1024 a shapeCasts_S1x1024_S1024 : FVec Ideal S1024 .f32) (ix1 r) = a (ix2 (0 : Fin 1) r) := by
  refine (shapeCast_dropUnit_apply ![1024] a shapeCasts_S1x1024_S1024 (ix1 r)).trans ?_
  congr 1
  funext b
  match b with
  | ⟨0, _⟩ => rfl
  | ⟨1, _⟩ => rfl

/-- A [1024] vector viewed [1, 1024] reads r at (0, r). -/
theorem add2_at (w : FVec Ideal S1024 .f32) (r : Fin 1024) :
    shapeCast S1x1024 w shapeCasts_S1024_S1x1024 (ix2 (0 : Fin 1) r) = w (ix1 r) := by
  refine (shapeCast_addUnit_apply ![1024] w shapeCasts_S1024_S1x1024 (ix2 (0 : Fin 1) r)).trans ?_
  congr 1
  funext b
  match b with
  | ⟨0, _⟩ => rfl

/-- The transposed tile reads (c, k) at (k, c). -/
theorem transp_at (z : FVec Ideal S1024x128 .bf16) (k : Fin 128) (c : Fin 1024) :
    transpose S128x1024 [1, 0] z transposes_S1024x128_p1_0_S128x1024 (ix2 k c) = z (ix2 c k) :=
  transpose_apply [1, 0] z transposes_S1024x128_p1_0_S128x1024 (ix2 k c) (ix2 c k) (fun b => match b with
    | ⟨0, _⟩ => rfl
    | ⟨1, _⟩ => rfl)

/-- A row sum: the reduction over the column axis at row r. -/
theorem rowsum_at (src : FVec Ideal S1024x1024 .f32) (r : Fin 1024) :
    multiReduction .add [1] S1024 src 0x00000000#32 reduces_S1024x1024_S1024 (.inl rfl) rfl (ix1 r)
      = ∑ c : Fin 1024, src (ix2 r c) := by
  refine (Ideal.multiReduction_add_single src 0x00000000#32 reduces_S1024x1024_S1024 (.inl rfl) rfl (ix1 r)).trans ?_
  refine Finset.sum_congr rfl fun c _ => congrArg src ?_
  funext a
  apply Fin.ext
  match a with
  | ⟨0, _⟩ => rfl
  | ⟨1, _⟩ => rfl

/-! The tile product's dimension numbers read the left operand at (row, k) and the right at (k, column). -/

theorem dot_lhs_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl

theorem dot_lhs_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q

theorem dot_rhs_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q

theorem dot_rhs_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The tile product into the zero accumulator, of a consensus tile and the transposed slab of one view, at (r, c). -/
theorem prod_at (x : FVec Ideal S1024x128 .bf16) (y : Vec Ideal S1x1024x128 .bf16) (r c : Fin 1024) :
    matmul dot_S1024x128_S128x1024_S1024x1024_1_0_0_1_n_n none x
        (transpose S128x1024 [1, 0] (shapeCast S1024x128 y shapeCasts_S1x1024x128_S1024x128 : FVec Ideal S1024x128 .bf16)
          transposes_S1024x128_p1_0_S128x1024 : FVec Ideal S128x1024 .bf16)
        (constant (F := Ideal) S1024x1024 .f32 0x00000000#32) (ix2 r c)
      = dotBlk x y r c := by
  refine (Idealize.ShloMosaic.MatmulAt.matmul_zero_at dot_S1024x128_S128x1024_S1024x1024_1_0_0_1_n_n rfl rfl
    dot_lhs_0 dot_lhs_1 dot_rhs_0 dot_rhs_1 none x _ r c).trans ?_
  unfold dotBlk
  refine Finset.sum_congr rfl fun k _ => ?_
  rw [transp_at, drop3_at]

/-- View 0's doubled score. -/
theorem pay5_at (x0 : Vec Ideal S1024x128 .bf16) (y : Vec Ideal S1x1024x128 .bf16) (r c : Fin 1024) :
    k0_pay5 x0 y (ix2 r c) = dotBlk x0 y r c * two := by
  unfold k0_pay5
  rw [pay2_eq]
  exact congrArg (· * two) (prod_at x0 y r c)

/-- View 1's product (not yet doubled). -/
theorem pay8_at (x0 : Vec Ideal S1024x128 .bf16) (y : Vec Ideal S1x1024x128 .bf16) (r c : Fin 1024) :
    k0_pay8 x0 y (ix2 r c) = dotBlk x0 y r c := by
  unfold k0_pay8
  rw [pay2_eq]
  exact prod_at x0 y r c

/-- Doubling. -/
theorem pay9_at (w : FVec Ideal S1024x1024 .f32) (r c : Fin 1024) : k0_pay9 w (ix2 r c) = w (ix2 r c) * two := by
  rfl

/-- View 2's doubled score. -/
theorem pay12_at (x4 : FVec Ideal S1024x128 .bf16) (y : Vec Ideal S1x1024x128 .bf16) (r c : Fin 1024) :
    k0_pay12 x4 y (ix2 r c) = dotBlk x4 y r c * two := by
  unfold k0_pay12
  exact congrArg (· * two) (prod_at x4 y r c)

/-- A denominator row: the accumulator row plus the row sum of weight times the exponential. -/
theorem denom_at (w e : FVec Ideal S1024x1024 .f32) (a : Vec Ideal S1x1024 .f32) (r : Fin 1024) :
    (shapeCast S1x1024
        (addf (shapeCast S1024 a shapeCasts_S1x1024_S1024 : FVec Ideal S1024 .f32)
          (multiReduction .add [1] S1024 (mulf w (exp e)) 0x00000000#32 reduces_S1024x1024_S1024 (.inl rfl) rfl))
        shapeCasts_S1024_S1x1024 : FVec Ideal S1x1024 .f32) (ix2 (0 : Fin 1) r)
      = a (ix2 (0 : Fin 1) r) + ∑ c : Fin 1024, w (ix2 r c) * Ideal.exp (e (ix2 r c)) := by
  rw [add2_at, addf_apply, drop2_at, rowsum_at]
  rfl

/-- A diagonal pick: under a mask set exactly on the diagonal, the row sum keeps the diagonal entry. -/
theorem diag_at (m : IVec S1024x1024 1) (hm : ∀ r c : Fin 1024, m (ix2 r c) = if r = c then 1#1 else 0#1)
    (e : FVec Ideal S1024x1024 .f32) (r : Fin 1024) :
    (shapeCast S1x1024
        (multiReduction .add [1] S1024
          (select m e (broadcast S1024x1024 (Scalar.ofBits (F := Ideal) .f32 0x00000000#32))) 0x00000000#32
          reduces_S1024x1024_S1024 (.inl rfl) rfl)
        shapeCasts_S1024_S1x1024 : FVec Ideal S1x1024 .f32) (ix2 (0 : Fin 1) r)
      = e (ix2 r r) := by
  rw [add2_at, rowsum_at]
  refine Eq.trans (Finset.sum_congr rfl fun c _ => ?_) (sum_diag r fun c => e (ix2 r c))
  rw [select_apply, hm]
  by_cases h : r = c
  · rw [if_pos h, if_pos h, select_one]
  · rw [if_neg h, if_neg h, select_zero]
    exact Ideal.ofBits_zero_f32

/-- View 0's denominator row: what the accumulator row held plus the tile's sum. -/
theorem pay6_at (x0 : Vec Ideal S1024x128 .bf16) (x1 : Vec Ideal S1024x1024 .f32) (y : Vec Ideal S1x1024x128 .bf16)
    (a : Vec Ideal S1x1024 .f32) (r : Fin 1024) :
    k0_pay6 x0 x1 y a (ix2 (0 : Fin 1) r)
      = a (ix2 (0 : Fin 1) r) + ∑ c : Fin 1024, (one - x1 (ix2 r c)) * Ideal.exp (dotBlk x0 y r c * two) := by
  unfold k0_pay6
  refine (denom_at (k0_pay3 x1) (k0_pay5 x0 y) a r).trans ?_
  refine congrArg (a (ix2 (0 : Fin 1) r) + ·) (Finset.sum_congr rfl fun c _ => ?_)
  rw [pay3_at, pay5_at]

/-- View 1's denominator row, over the weight and the product the first half of the body hands on. -/
theorem pay10_at (w7 w32 : FVec Ideal S1024x1024 .f32) (a : Vec Ideal S1x1024 .f32) (r : Fin 1024) :
    k0_pay10 w7 w32 a (ix2 (0 : Fin 1) r)
      = a (ix2 (0 : Fin 1) r) + ∑ c : Fin 1024, w7 (ix2 r c) * Ideal.exp (w32 (ix2 r c) * two) := by
  unfold k0_pay10
  refine (denom_at w7 (k0_pay9 w32) a r).trans ?_
  refine congrArg (a (ix2 (0 : Fin 1) r) + ·) (Finset.sum_congr rfl fun c _ => ?_)
  rw [pay9_at]

/-- View 2's denominator row. -/
theorem pay13_at (x4 : FVec Ideal S1024x128 .bf16) (w7 : FVec Ideal S1024x1024 .f32) (y : Vec Ideal S1x1024x128 .bf16)
    (a : Vec Ideal S1x1024 .f32) (r : Fin 1024) :
    k0_pay13 x4 w7 y a (ix2 (0 : Fin 1) r)
      = a (ix2 (0 : Fin 1) r) + ∑ c : Fin 1024, w7 (ix2 r c) * Ideal.exp (dotBlk x4 y r c * two) := by
  unfold k0_pay13
  refine (denom_at w7 (k0_pay12 x4 y) a r).trans ?_
  refine congrArg (a (ix2 (0 : Fin 1) r) + ·) (Finset.sum_congr rfl fun c _ => ?_)
  rw [pay12_at]

/-- View 0's diagonal pick is the diagonal score. -/
theorem pay7_at (x0 : Vec Ideal S1024x128 .bf16) (y : Vec Ideal S1x1024x128 .bf16) (r : Fin 1024) :
    k0_pay7 x0 y (ix2 (0 : Fin 1) r) = dotBlk x0 y r r * two := by
  unfold k0_pay7
  refine (diag_at k0_pay4 pay4_at (k0_pay5 x0 y) r).trans ?_
  rw [pay5_at]

/-- View 1's diagonal pick, under the body's own mask. -/
theorem pay11_at (w32 : FVec Ideal S1024x1024 .f32) (r : Fin 1024) :
    k0_pay11 k0_pay4 w32 (ix2 (0 : Fin 1) r) = w32 (ix2 r r) * two := by
  unfold k0_pay11
  refine (diag_at k0_pay4 pay4_at (k0_pay9 w32) r).trans ?_
  rw [pay9_at]

/-- View 2's diagonal pick, under the body's own mask. -/
theorem pay14_at (x4 : FVec Ideal S1024x128 .bf16) (y : Vec Ideal S1x1024x128 .bf16) (r : Fin 1024) :
    k0_pay14 x4 k0_pay4 y (ix2 (0 : Fin 1) r) = dotBlk x4 y r r * two := by
  unfold k0_pay14
  refine (diag_at k0_pay4 pay4_at (k0_pay12 x4 y) r).trans ?_
  rw [pay12_at]

/-- The value written out: the loss entry of the denominator and the positive score. -/
theorem pay15_at (d p : Vec Ideal S3x1024 .f32) (v : Fin 3) (r : Fin 1024) :
    k0_pay15 d p (ix2 v r) = lossOf (d (ix2 v r)) (p (ix2 v r)) := by
  unfold k0_pay15 lossOf
  show Ideal.ofBits .f32 0x00000000#32 - (p (ix2 v r) - Ideal.log (max (d (ix2 v r)) floorEps)) = _
  rw [Ideal.ofBits_zero_f32]

end Cert.KernelIdeal.Pay

end
-- ==== Proof.PiecesAD.lean ====
/-
  What the body leaves, entry by entry, at the grid points that open a row of tiles (column tile 0): the accumulator is
  reset there, so a denominator entry is the first tile's own sum; where that tile is also the diagonal tile the positive
  score is picked.
-/
import proofs.«100503_j34299608826247_1_alg».proof.Proof.Gen.KernelIdeal.Frame
import proofs.«100503_j34299608826247_1_alg».proof.Proof.Payload
import proofs.«100503_j34299608826247_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.PiecesAD

open Idealize.ShloMosaic Idealize.ShloMosaic.TcCoe Idealize.ShloMosaic.ValueIdx Idealize.SL.Sem
open Cert.KernelIdeal Cert.KernelIdeal.Gen Cert.KernelIdeal.Pay Cert.Sgcl

/-! ## Reading a [3, 1024] buffer stored a row at a time -/

theorem hz2 : (![0, 0] : Fin 2 → Nat) = fun _ => 0 := funext fun a => by fin_cases a <;> rfl

section Rows

variable {Val : EltTy → Type} [∀ e, Nonempty (Val e)] {e : EltTy}

/-- The newest piece is row `o`: at (a, r) with `a = o` the canonical contents are its payload at (0, r)
    (an embedded coordinate is offset + 1 · coordinate). -/
theorem canon_row_hit (o : Nat) (a : Fin 3) (h : a.val = o) (r : Fin 1024)
    (inb : ∀ x, (![o, 0] : Fin 2 → Nat) x + S1x1024.size x ≤ S3x1024.size x)
    (w : S1x1024.Idx → Val e) (L : List (View.Piece Val S3x1024 e)) :
    View.canon ((⟨Rect.unit (s := S3x1024) ![o, 0] S1x1024.size inb, w⟩ : View.Piece Val S3x1024 e) :: L) (ix2 a r)
      = w (ix2 (0 : Fin 1) r) := by
  have he : (Rect.unit (s := S3x1024) ![o, 0] S1x1024.size inb).emb (ix2 (0 : Fin 1) r) = ix2 a r := by
    funext x; apply Fin.ext
    fin_cases x
    · show o + 1 * 0 = a.val; omega
    · show 0 + 1 * r.val = r.val; omega
  exact (congrArg (View.canon ((⟨Rect.unit (s := S3x1024) ![o, 0] S1x1024.size inb, w⟩ : View.Piece Val S3x1024 e) :: L)) he.symm).trans
    (View.canon_cons_emb (Rect.unit (s := S3x1024) ![o, 0] S1x1024.size inb) w L (ix2 (0 : Fin 1) r))

/-- The newest piece is another row: the canonical contents at (a, r) are the older pieces'. -/
theorem canon_row_skip (o : Nat) (a : Fin 3) (h : a.val ≠ o) (r : Fin 1024)
    (inb : ∀ x, (![o, 0] : Fin 2 → Nat) x + S1x1024.size x ≤ S3x1024.size x)
    (w : S1x1024.Idx → Val e) (L : List (View.Piece Val S3x1024 e)) :
    View.canon ((⟨Rect.unit (s := S3x1024) ![o, 0] S1x1024.size inb, w⟩ : View.Piece Val S3x1024 e) :: L) (ix2 a r)
      = View.canon L (ix2 a r) := by
  refine View.canon_cons_of_not_mem _ L ?_
  intro hm
  obtain ⟨i, hi, he⟩ := (LoadRect.mem_set _).mp hm (0 : Fin 2)
  have hi1 : i < 1 := hi
  have he' : a.val = o + 1 * i := he
  omega

/-- The newest piece is the whole buffer: the canonical contents are its payload. -/
theorem canon_whole (a : Fin 3) (r : Fin 1024)
    (inb : ∀ x, (![0, 0] : Fin 2 → Nat) x + S3x1024.size x ≤ S3x1024.size x)
    (w : S3x1024.Idx → Val e) (L : List (View.Piece Val S3x1024 e)) :
    View.canon ((⟨Rect.unit (s := S3x1024) ![0, 0] S3x1024.size inb, w⟩ : View.Piece Val S3x1024 e) :: L) (ix2 a r)
      = w (ix2 a r) :=
  congrFun (View.canon_cons_unit_zero (S := S3x1024) hz2 inb w L) (ix2 a r)

/-- A load of row `o` after the writes `L` reads, at (0, r), the canonical contents at (o, r). -/
theorem readCov_row {sig : RefSig} {κ : Kind} {sp : Space} (vw : View sig κ sp S3x1024 e)
    (L : List (View.Piece Val S3x1024 e)) (o : Nat) (a : Fin 3) (h : a.val = o) (r : Fin 1024)
    (inb : ∀ x, (![o, 0] : Fin 2 → Nat) x + S1x1024.size x ≤ S3x1024.size x) :
    vw.readCov L (Rect.unit (s := S3x1024) ![o, 0] S1x1024.size inb).toLoadRect (ix2 (0 : Fin 1) r)
      = View.canon L (ix2 a r) := by
  rw [View.readCov_eq_canon']
  refine congrArg (View.canon L) ?_
  funext x; apply Fin.ext
  fin_cases x
  · show o + 1 * 0 = a.val; omega
  · show 0 + 1 * r.val = r.val; omega

end Rows

/-- Slab `o` of the three views' tile, read at (0, c, d), is the tile at (o, c, d). -/
theorem slab_at (x2 : Vec Ideal S3x1024x128 .bf16) (o : Nat) (a : Fin 3) (h : a.val = o) (c : Fin 1024) (d : Fin 128)
    (inb : ∀ x, (![o, 0, 0] : Fin 3 → Nat) x + S1x1024x128.size x ≤ S3x1024x128.size x) :
    View.ld x2 (Rect.unit (s := S3x1024x128) ![o, 0, 0] S1x1024x128.size inb) (ix3 (0 : Fin 1) c d) = x2 (ix3 a c d) := by
  refine congrArg x2 ?_
  funext x; apply Fin.ext
  fin_cases x
  · show o + 1 * 0 = a.val; omega
  · show 0 + 1 * c.val = c.val; omega
  · show 0 + 1 * d.val = d.val; omega

/-! ## One row's value: the reset zero plus the tile's sum -/

theorem zero_add_of {a b t : EReal} (ha : a = 0) (hb : b = t) : a + b = t := by rw [ha, hb, zero_add]

/-- The doubled product against slab `o` is the tile score of view `o`. -/
theorem dot_slab (x0 : Vec Ideal S1024x128 .bf16) (x2 : Vec Ideal S3x1024x128 .bf16) (o : Nat) (a : Fin 3) (h : a.val = o)
    (r c : Fin 1024) (inb : ∀ x, (![o, 0, 0] : Fin 3 → Nat) x + S1x1024x128.size x ≤ S3x1024x128.size x) :
    dotBlk x0 (View.ld x2 (Rect.unit (s := S3x1024x128) ![o, 0, 0] S1x1024x128.size inb)) r c * two = simBlk x0 x2 a r c := by
  unfold dotBlk simBlk
  refine congrArg (· * two) ?_
  refine Finset.sum_congr rfl fun d _ => ?_
  exact congrArg (x0 (ix2 r d) * ·) (slab_at x2 o a h c d inb)

/-- View 0's row over an accumulator row that reads zero. -/
theorem row0_at (x0 : Vec Ideal S1024x128 .bf16) (x1 : Vec Ideal S1024x1024 .f32) (x2 : Vec Ideal S3x1024x128 .bf16)
    (a : Vec Ideal S1x1024 .f32) (v : Fin 3) (h : v.val = 0) (r : Fin 1024)
    (inb : ∀ x, (![0, 0, 0] : Fin 3 → Nat) x + S1x1024x128.size x ≤ S3x1024x128.size x) (ha : a (ix2 (0 : Fin 1) r) = 0) :
    k0_pay6 x0 x1 (View.ld x2 (Rect.unit (s := S3x1024x128) ![0, 0, 0] S1x1024x128.size inb)) a (ix2 (0 : Fin 1) r)
      = contribBlk x0 x1 x2 v r := by
  refine (pay6_at x0 x1 _ a r).trans (zero_add_of ha ?_)
  unfold contribBlk
  refine Finset.sum_congr rfl fun c _ => ?_
  exact congrArg (fun t => (one - x1 (ix2 r c)) * Ideal.exp t) (dot_slab x0 x2 0 v h r c inb)

/-- View 1's row: the weight and the product come from the first half of the body. -/
theorem row1_at (x0 : Vec Ideal S1024x128 .bf16) (x1 : Vec Ideal S1024x1024 .f32) (x2 : Vec Ideal S3x1024x128 .bf16)
    (a : Vec Ideal S1x1024 .f32) (v : Fin 3) (h : v.val = 1) (r : Fin 1024)
    (inb : ∀ x, (![1, 0, 0] : Fin 3 → Nat) x + S1x1024x128.size x ≤ S3x1024x128.size x) (ha : a (ix2 (0 : Fin 1) r) = 0) :
    k0_pay10 (k0_pay3 x1) (k0_pay8 x0 (View.ld x2 (Rect.unit (s := S3x1024x128) ![1, 0, 0] S1x1024x128.size inb))) a (ix2 (0 : Fin 1) r)
      = contribBlk x0 x1 x2 v r := by
  refine (pay10_at _ _ a r).trans (zero_add_of ha ?_)
  unfold contribBlk
  refine Finset.sum_congr rfl fun c _ => ?_
  refine congrArg₂ (· * ·) (pay3_at x1 r c) ?_
  refine congrArg Ideal.exp ?_
  refine (congrArg (· * two) (pay8_at x0 _ r c)).trans ?_
  exact dot_slab x0 x2 1 v h r c inb

/-- View 2's row: the consensus tile through its same-shape cast. -/
theorem row2_at (x0 : Vec Ideal S1024x128 .bf16) (x1 : Vec Ideal S1024x1024 .f32) (x2 : Vec Ideal S3x1024x128 .bf16)
    (a : Vec Ideal S1x1024 .f32) (v : Fin 3) (h : v.val = 2) (r : Fin 1024)
    (inb : ∀ x, (![2, 0, 0] : Fin 3 → Nat) x + S1x1024x128.size x ≤ S3x1024x128.size x) (ha : a (ix2 (0 : Fin 1) r) = 0) :
    k0_pay13 (k0_pay2 x0) (k0_pay3 x1) (View.ld x2 (Rect.unit (s := S3x1024x128) ![2, 0, 0] S1x1024x128.size inb)) a (ix2 (0 : Fin 1) r)
      = contribBlk x0 x1 x2 v r := by
  refine (pay13_at _ _ _ a r).trans (zero_add_of ha ?_)
  unfold contribBlk
  refine Finset.sum_congr rfl fun c _ => ?_
  refine congrArg₂ (· * ·) (pay3_at x1 r c) ?_
  refine congrArg Ideal.exp ?_
  rw [pay2_eq]
  exact dot_slab x0 x2 2 v h r c inb

/-! ## One row's diagonal pick -/

/-- View 0's pick is the diagonal score. -/
theorem pick0_at (x0 : Vec Ideal S1024x128 .bf16) (x2 : Vec Ideal S3x1024x128 .bf16) (v : Fin 3) (h : v.val = 0) (r : Fin 1024)
    (inb : ∀ x, (![0, 0, 0] : Fin 3 → Nat) x + S1x1024x128.size x ≤ S3x1024x128.size x) :
    k0_pay7 x0 (View.ld x2 (Rect.unit (s := S3x1024x128) ![0, 0, 0] S1x1024x128.size inb)) (ix2 (0 : Fin 1) r)
      = simBlk x0 x2 v r r :=
  (pay7_at x0 _ r).trans (dot_slab x0 x2 0 v h r r inb)

/-- View 1's pick, of the product the first half of the body hands on. -/
theorem pick1_at (x0 : Vec Ideal S1024x128 .bf16) (x2 : Vec Ideal S3x1024x128 .bf16) (v : Fin 3) (h : v.val = 1) (r : Fin 1024)
    (inb : ∀ x, (![1, 0, 0] : Fin 3 → Nat) x + S1x1024x128.size x ≤ S3x1024x128.size x) :
    k0_pay11 k0_pay4 (k0_pay8 x0 (View.ld x2 (Rect.unit (s := S3x1024x128) ![1, 0, 0] S1x1024x128.size inb))) (ix2 (0 : Fin 1) r)
      = simBlk x0 x2 v r r := by
  refine (pay11_at _ r).trans ?_
  refine (congrArg (· * two) (pay8_at x0 _ r r)).trans ?_
  exact dot_slab x0 x2 1 v h r r inb

/-- View 2's pick, the consensus tile through its same-shape cast. -/
theorem pick2_at (x0 : Vec Ideal S1024x128 .bf16) (x2 : Vec Ideal S3x1024x128 .bf16) (v : Fin 3) (h : v.val = 2) (r : Fin 1024)
    (inb : ∀ x, (![2, 0, 0] : Fin 3 → Nat) x + S1x1024x128.size x ≤ S3x1024x128.size x) :
    k0_pay14 (k0_pay2 x0) k0_pay4 (View.ld x2 (Rect.unit (s := S3x1024x128) ![2, 0, 0] S1x1024x128.size inb)) (ix2 (0 : Fin 1) r)
      = simBlk x0 x2 v r r := by
  refine (pay14_at _ _ r).trans ?_
  rw [pay2_eq]
  exact dot_slab x0 x2 2 v h r r inb

/-! ## The three entries -/

/-- First tile, on the diagonal: the denominator entry is the tile's sum (over the reset zero). -/
theorem soutA0_at (c : Dev nD) (i : grid0.Coords) (arg2 : Memref sig .tc .vmem S1024x128 .bf16) (harg2 : arg2.IsWhole) (arg3 : Memref sig .tc .vmem S1024x1024 .f32) (harg3 : arg3.IsWhole) (arg4 : Memref sig .tc .vmem S3x1024x128 .bf16) (harg4 : arg4.IsWhole) (arg5 : Memref sig .tc .vmem S3x1024 .f32) (harg5 : arg5.IsWhole) (arg6 : Memref sig .tc .vmem S3x1024 .f32) (harg6 : arg6.IsWhole) (arg7 : Memref sig .tc .vmem S3x1024 .f32) (harg7 : arg7.IsWhole) (hc0 : cond0_0 i) (hc1 : cond0_1 i) (hc2 : cond0_2 i) (hc3 : cond0_3 i) (hc4 : ¬cond0_4 i)
    (x0 : Vec Ideal S1024x128 .bf16) (x1 : Vec Ideal S1024x1024 .f32) (x2 : Vec Ideal S3x1024x128 .bf16) (v : Fin 3) (r : Fin 1024) :
    sout0_A_0 (F := Ideal) c i arg2 harg2 arg3 harg3 arg4 harg4 arg5 harg5 arg6 harg6 arg7 harg7 hc0 hc1 hc2 hc3 hc4 x0 x1 x2 (ix2 v r)
      = contribBlk x0 x1 x2 v r := by
  unfold sout0_A_0
  rw [View.read_writes_eq_canon _ _ _ (scover0_A_0 c i arg2 harg2 arg3 harg3 arg4 harg4 arg5 harg5 arg6 harg6 arg7 harg7 hc0 hc1 hc2 hc3 hc4 x0 x1 x2)]
  unfold kernelRun0_A
  dsimp only
  sl_unfold_words
  simp only [View.readAt_eq_ld, harg2.read_unread, harg3.read_unread, harg4.read_unread,
    View.ld_unit_zero (S := S1024x128) hz2, View.ld_unit_zero (S := S1024x1024) hz2]
  have hv : v.val = 0 ∨ v.val = 1 ∨ v.val = 2 := by have := v.isLt; omega
  rcases hv with h | h | h
  · -- row 0: under the rows of views 2 and 1; its accumulator row reads the reset store
    refine (canon_row_skip 2 v (by omega) r _ _ _).trans ?_
    refine (canon_row_skip 1 v (by omega) r _ _ _).trans ?_
    refine (canon_row_hit 0 v h r _ _ _).trans ?_
    refine row0_at x0 x1 x2 _ v h r _ ?_
    refine (readCov_row _ _ 0 v h r _).trans ?_
    exact (canon_whole v r _ _ _).trans (pay1_at v r)
  · -- row 1: under the row of view 2; its accumulator row reads past row 0's store to the reset store
    refine (canon_row_skip 2 v (by omega) r _ _ _).trans ?_
    refine (canon_row_hit 1 v h r _ _ _).trans ?_
    refine row1_at x0 x1 x2 _ v h r _ ?_
    refine (readCov_row _ _ 1 v h r _).trans ?_
    refine (canon_row_skip 0 v (by omega) r _ _ _).trans ?_
    exact (canon_whole v r _ _ _).trans (pay1_at v r)
  · -- row 2: the newest piece; its accumulator row reads past rows 1 and 0 to the reset store
    refine (canon_row_hit 2 v h r _ _ _).trans ?_
    refine row2_at x0 x1 x2 _ v h r _ ?_
    refine (readCov_row _ _ 2 v h r _).trans ?_
    refine (canon_row_skip 1 v (by omega) r _ _ _).trans ?_
    refine (canon_row_skip 0 v (by omega) r _ _ _).trans ?_
    exact (canon_whole v r _ _ _).trans (pay1_at v r)

/-- First tile, on the diagonal: the positive entry is the diagonal score. -/
theorem soutA1_at (c : Dev nD) (i : grid0.Coords) (arg2 : Memref sig .tc .vmem S1024x128 .bf16) (harg2 : arg2.IsWhole) (arg3 : Memref sig .tc .vmem S1024x1024 .f32) (harg3 : arg3.IsWhole) (arg4 : Memref sig .tc .vmem S3x1024x128 .bf16) (harg4 : arg4.IsWhole) (arg5 : Memref sig .tc .vmem S3x1024 .f32) (harg5 : arg5.IsWhole) (arg6 : Memref sig .tc .vmem S3x1024 .f32) (harg6 : arg6.IsWhole) (arg7 : Memref sig .tc .vmem S3x1024 .f32) (harg7 : arg7.IsWhole) (hc0 : cond0_0 i) (hc1 : cond0_1 i) (hc2 : cond0_2 i) (hc3 : cond0_3 i) (hc4 : ¬cond0_4 i)
    (x0 : Vec Ideal S1024x128 .bf16) (x1 : Vec Ideal S1024x1024 .f32) (x2 : Vec Ideal S3x1024x128 .bf16) (v : Fin 3) (r : Fin 1024) :
    sout0_A_1 (F := Ideal) c i arg2 harg2 arg3 harg3 arg4 harg4 arg5 harg5 arg6 harg6 arg7 harg7 hc0 hc1 hc2 hc3 hc4 x0 x1 x2 (ix2 v r)
      = simBlk x0 x2 v r r := by
  unfold sout0_A_1
  rw [View.read_writes_eq_canon _ _ _ (scover0_A_1 c i arg2 harg2 arg3 harg3 arg4 harg4 arg5 harg5 arg6 harg6 arg7 harg7 hc0 hc1 hc2 hc3 hc4 x0 x1 x2)]
  unfold kernelRun0_A
  dsimp only
  sl_unfold_words
  simp only [View.readAt_eq_ld, harg2.read_unread, harg3.read_unread, harg4.read_unread,
    View.ld_unit_zero (S := S1024x128) hz2, View.ld_unit_zero (S := S1024x1024) hz2]
  have hv : v.val = 0 ∨ v.val = 1 ∨ v.val = 2 := by have := v.isLt; omega
  rcases hv with h | h | h
  · refine (canon_row_skip 2 v (by omega) r _ _ _).trans ?_
    refine (canon_row_skip 1 v (by omega) r _ _ _).trans ?_
    refine (canon_row_hit 0 v h r _ _ _).trans ?_
    exact pick0_at x0 x2 v h r _
  · refine (canon_row_skip 2 v (by omega) r _ _ _).trans ?_
    refine (canon_row_hit 1 v h r _ _ _).trans ?_
    exact pick1_at x0 x2 v h r _
  · refine (canon_row_hit 2 v h r _ _ _).trans ?_
    exact pick2_at x0 x2 v h r _

/-- First tile, off the diagonal: the denominator entry is the tile's sum (over the reset zero). -/
theorem soutD0_at (c : Dev nD) (i : grid0.Coords) (arg2 : Memref sig .tc .vmem S1024x128 .bf16) (harg2 : arg2.IsWhole) (arg3 : Memref sig .tc .vmem S1024x1024 .f32) (harg3 : arg3.IsWhole) (arg4 : Memref sig .tc .vmem S3x1024x128 .bf16) (harg4 : arg4.IsWhole) (arg5 : Memref sig .tc .vmem S3x1024 .f32) (harg5 : arg5.IsWhole) (arg6 : Memref sig .tc .vmem S3x1024 .f32) (harg6 : arg6.IsWhole) (arg7 : Memref sig .tc .vmem S3x1024 .f32) (harg7 : arg7.IsWhole) (hc0 : cond0_0 i) (hc1 : ¬cond0_1 i) (hc2 : ¬cond0_2 i) (hc3 : ¬cond0_3 i) (hc4 : ¬cond0_4 i)
    (x0 : Vec Ideal S1024x128 .bf16) (x1 : Vec Ideal S1024x1024 .f32) (x2 : Vec Ideal S3x1024x128 .bf16) (xs1 : Vec Ideal S3x1024 .f32) (v : Fin 3) (r : Fin 1024) :
    sout0_D_0 (F := Ideal) c i arg2 harg2 arg3 harg3 arg4 harg4 arg5 harg5 arg6 harg6 arg7 harg7 hc0 hc1 hc2 hc3 hc4 x0 x1 x2 xs1 (ix2 v r)
      = contribBlk x0 x1 x2 v r := by
  unfold sout0_D_0
  rw [View.read_writes_eq_canon _ _ _ (scover0_D_0 c i arg2 harg2 arg3 harg3 arg4 harg4 arg5 harg5 arg6 harg6 arg7 harg7 hc0 hc1 hc2 hc3 hc4 x0 x1 x2 xs1)]
  unfold kernelRun0_D
  dsimp only
  sl_unfold_words
  simp only [View.readAt_eq_ld, harg2.read_unread, harg3.read_unread, harg4.read_unread,
    View.ld_unit_zero (S := S1024x128) hz2, View.ld_unit_zero (S := S1024x1024) hz2]
  have hv : v.val = 0 ∨ v.val = 1 ∨ v.val = 2 := by have := v.isLt; omega
  rcases hv with h | h | h
  · -- row 0: under the rows of views 2 and 1; its accumulator row reads the reset store
    refine (canon_row_skip 2 v (by omega) r _ _ _).trans ?_
    refine (canon_row_skip 1 v (by omega) r _ _ _).trans ?_
    refine (canon_row_hit 0 v h r _ _ _).trans ?_
    refine row0_at x0 x1 x2 _ v h r _ ?_
    refine (readCov_row _ _ 0 v h r _).trans ?_
    exact (canon_whole v r _ _ _).trans (pay1_at v r)
  · -- row 1: under the row of view 2; its accumulator row reads past row 0's store to the reset store
    refine (canon_row_skip 2 v (by omega) r _ _ _).trans ?_
    refine (canon_row_hit 1 v h r _ _ _).trans ?_
    refine row1_at x0 x1 x2 _ v h r _ ?_
    refine (readCov_row _ _ 1 v h r _).trans ?_
    refine (canon_row_skip 0 v (by omega) r _ _ _).trans ?_
    exact (canon_whole v r _ _ _).trans (pay1_at v r)
  · -- row 2: the newest piece; its accumulator row reads past rows 1 and 0 to the reset store
    refine (canon_row_hit 2 v h r _ _ _).trans ?_
    refine row2_at x0 x1 x2 _ v h r _ ?_
    refine (readCov_row _ _ 2 v h r _).trans ?_
    refine (canon_row_skip 1 v (by omega) r _ _ _).trans ?_
    refine (canon_row_skip 0 v (by omega) r _ _ _).trans ?_
    exact (canon_whole v r _ _ _).trans (pay1_at v r)

end Cert.KernelIdeal.PiecesAD

end
-- ==== Proof.PiecesBC.lean ====
/-
  What the body leaves, entry by entry, at the grid points off the diagonal and past the first column tile: a denominator
  entry grows by the tile's sum; at the last column tile the loss entry is written out from the grown denominator and the
  positive score carried from the diagonal tile.
-/
import proofs.«100503_j34299608826247_1_alg».proof.Proof.Gen.KernelIdeal.Frame
import proofs.«100503_j34299608826247_1_alg».proof.Proof.Payload
import proofs.«100503_j34299608826247_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.PiecesBC

open Idealize.ShloMosaic Idealize.ShloMosaic.TcCoe Idealize.ShloMosaic.ValueIdx Idealize.SL.Sem
open Cert.KernelIdeal Cert.KernelIdeal.Gen Cert.KernelIdeal.Pay Cert.Sgcl

/-! ## Three row pieces

The accumulator [3, 1024] is stored one row at a time, row 0 first and row 2 last. Read at entry (v, r), the canonical
contents are the payload of row v's piece at (0, r): entry (v, r) is row v's rectangle's image of (0, r), and the
rectangles of the rows stored after it do not hold it (their first coordinate is another row). -/

/-- Entry (k, r) is the image of (0, r) under the rectangle of row k. -/
theorem emb_row (k : Fin 3) (inb : ∀ a, (![k.val, 0] : Fin 2 → Nat) a + (![1, 1024] : Fin 2 → Nat) a ≤ S3x1024.size a)
    (r : Fin 1024) :
    (Rect.unit (s := S3x1024) ![k.val, 0] ![1, 1024] inb).emb (ix2 (0 : Fin 1) r) = ix2 k r := by
  funext x; apply Fin.ext
  fin_cases x
  · show k.val + 1 * 0 = k.val; omega
  · show 0 + 1 * r.val = r.val; omega

/-- Entry (v, r) is not in the rectangle of another row k. -/
theorem not_mem_row (k v : Fin 3) (hne : k.val ≠ v.val)
    (inb : ∀ a, (![k.val, 0] : Fin 2 → Nat) a + (![1, 1024] : Fin 2 → Nat) a ≤ S3x1024.size a) (r : Fin 1024) :
    (ix2 v r : S3x1024.Idx) ∉ (Rect.unit (s := S3x1024) ![k.val, 0] ![1, 1024] inb).set := by
  intro hm
  obtain ⟨j, hj, he⟩ := (LoadRect.mem_set _).mp hm (0 : Fin 2)
  have hj1 : j < 1 := hj
  have he' : v.val = k.val + 1 * j := he
  omega

/-- When the newest piece is row k, the contents at (k, r) are its payload at (0, r). -/
theorem canon_hit (k : Fin 3) (inb : ∀ a, (![k.val, 0] : Fin 2 → Nat) a + (![1, 1024] : Fin 2 → Nat) a ≤ S3x1024.size a)
    (w : Vec Ideal S1x1024 .f32) (L : List (View.Piece (Elt Ideal) S3x1024 .f32)) (r : Fin 1024) :
    View.canon (Val := Elt Ideal) ((⟨Rect.unit ![k.val, 0] ![1, 1024] inb, w⟩ : View.Piece (Elt Ideal) S3x1024 .f32) :: L)
        (ix2 k r) = w (ix2 (0 : Fin 1) r) := by
  rw [← emb_row k inb r]
  exact View.canon_cons_emb (Val := Elt Ideal) (e := .f32) (Rect.unit (s := S3x1024) ![k.val, 0] ![1, 1024] inb) w L
    (ix2 (0 : Fin 1) r)

/-- When the newest piece is another row k, the contents at (v, r) are the older pieces'. -/
theorem canon_skip (k v : Fin 3) (hne : k.val ≠ v.val)
    (inb : ∀ a, (![k.val, 0] : Fin 2 → Nat) a + (![1, 1024] : Fin 2 → Nat) a ≤ S3x1024.size a)
    (w : Vec Ideal S1x1024 .f32) (L : List (View.Piece (Elt Ideal) S3x1024 .f32)) (r : Fin 1024) :
    View.canon (Val := Elt Ideal) ((⟨Rect.unit ![k.val, 0] ![1, 1024] inb, w⟩ : View.Piece (Elt Ideal) S3x1024 .f32) :: L)
        (ix2 v r) = View.canon L (ix2 v r) :=
  View.canon_cons_of_not_mem (Val := Elt Ideal) (e := .f32)
    (⟨Rect.unit ![k.val, 0] ![1, 1024] inb, w⟩ : View.Piece (Elt Ideal) S3x1024 .f32) L (not_mem_row k v hne inb r)

section rows

variable (inb2 : ∀ a, (![2, 0] : Fin 2 → Nat) a + (![1, 1024] : Fin 2 → Nat) a ≤ S3x1024.size a)
  (inb1 : ∀ a, (![1, 0] : Fin 2 → Nat) a + (![1, 1024] : Fin 2 → Nat) a ≤ S3x1024.size a)
  (inb0 : ∀ a, (![0, 0] : Fin 2 → Nat) a + (![1, 1024] : Fin 2 → Nat) a ≤ S3x1024.size a)
  (w2 w1 w0 : Vec Ideal S1x1024 .f32)

theorem canon_rows_2 (r : Fin 1024) :
    View.canon (Val := Elt Ideal) [(⟨Rect.unit ![2, 0] ![1, 1024] inb2, w2⟩ : View.Piece (Elt Ideal) S3x1024 .f32),
        ⟨Rect.unit ![1, 0] ![1, 1024] inb1, w1⟩, ⟨Rect.unit ![0, 0] ![1, 1024] inb0, w0⟩] (ix2 (2 : Fin 3) r)
      = w2 (ix2 (0 : Fin 1) r) :=
  canon_hit 2 inb2 w2 _ r

theorem canon_rows_1 (r : Fin 1024) :
    View.canon (Val := Elt Ideal) [(⟨Rect.unit ![2, 0] ![1, 1024] inb2, w2⟩ : View.Piece (Elt Ideal) S3x1024 .f32),
        ⟨Rect.unit ![1, 0] ![1, 1024] inb1, w1⟩, ⟨Rect.unit ![0, 0] ![1, 1024] inb0, w0⟩] (ix2 (1 : Fin 3) r)
      = w1 (ix2 (0 : Fin 1) r) :=
  (canon_skip 2 1 (by decide) inb2 w2 _ r).trans (canon_hit 1 inb1 w1 _ r)

theorem canon_rows_0 (r : Fin 1024) :
    View.canon (Val := Elt Ideal) [(⟨Rect.unit ![2, 0] ![1, 1024] inb2, w2⟩ : View.Piece (Elt Ideal) S3x1024 .f32),
        ⟨Rect.unit ![1, 0] ![1, 1024] inb1, w1⟩, ⟨Rect.unit ![0, 0] ![1, 1024] inb0, w0⟩] (ix2 (0 : Fin 3) r)
      = w0 (ix2 (0 : Fin 1) r) :=
  (canon_skip 2 0 (by decide) inb2 w2 _ r).trans
    ((canon_skip 1 0 (by decide) inb1 w1 _ r).trans (canon_hit 0 inb0 w0 _ r))

end rows

/-! ## The loads and the three rows' values -/

section vals

variable (x0 : Vec Ideal S1024x128 .bf16) (x1 : Vec Ideal S1024x1024 .f32) (x2 : Vec Ideal S3x1024x128 .bf16)
  (xs0 : Vec Ideal S3x1024 .f32)

/-- A load of view k's slab, at (0, c, d), is the array at (k, c, d). -/
theorem ld_slab (k : Fin 3)
    (inb : ∀ a, (![k.val, 0, 0] : Fin 3 → Nat) a + (![1, 1024, 128] : Fin 3 → Nat) a ≤ S3x1024x128.size a)
    (c : Fin 1024) (d : Fin 128) :
    View.ld (Val := Elt Ideal) x2 (Rect.unit (s := S3x1024x128) ![k.val, 0, 0] ![1, 1024, 128] inb) (ix3 (0 : Fin 1) c d)
      = x2 (ix3 k c d) := by
  show x2 _ = x2 _
  congr 1
  funext a; apply Fin.ext
  fin_cases a
  · show k.val + 1 * 0 = k.val; omega
  · show 0 + 1 * c.val = c.val; omega
  · show 0 + 1 * d.val = d.val; omega

/-- A load of row k of the accumulator, at (0, r), is the accumulator at (k, r). -/
theorem ld_row (k : Fin 3)
    (inb : ∀ a, (![k.val, 0] : Fin 2 → Nat) a + (![1, 1024] : Fin 2 → Nat) a ≤ S3x1024.size a) (r : Fin 1024) :
    View.ld (Val := Elt Ideal) xs0 (Rect.unit (s := S3x1024) ![k.val, 0] ![1, 1024] inb) (ix2 (0 : Fin 1) r)
      = xs0 (ix2 k r) := by
  show xs0 _ = xs0 _
  congr 1
  funext a; apply Fin.ext
  fin_cases a
  · show k.val + 1 * 0 = k.val; omega
  · show 0 + 1 * r.val = r.val; omega

/-- The tile product against view k's slab, doubled, is the tile's score for view k. -/
theorem dot_slab (k : Fin 3)
    (inb : ∀ a, (![k.val, 0, 0] : Fin 3 → Nat) a + (![1, 1024, 128] : Fin 3 → Nat) a ≤ S3x1024x128.size a)
    (r c : Fin 1024) :
    dotBlk x0 (View.ld (Val := Elt Ideal) x2 (Rect.unit (s := S3x1024x128) ![k.val, 0, 0] ![1, 1024, 128] inb)) r c * two
      = simBlk x0 x2 k r c := by
  unfold dotBlk simBlk
  congr 1
  exact Finset.sum_congr rfl fun d _ => by rw [ld_slab x2 k inb c d]

/-- View 0's row: the accumulator entry plus the tile's sum. -/
theorem row0_val
    (inbs : ∀ a, (![0, 0, 0] : Fin 3 → Nat) a + (![1, 1024, 128] : Fin 3 → Nat) a ≤ S3x1024x128.size a)
    (inba : ∀ a, (![0, 0] : Fin 2 → Nat) a + (![1, 1024] : Fin 2 → Nat) a ≤ S3x1024.size a) (r : Fin 1024) :
    k0_pay6 x0 x1 (View.ld (Val := Elt Ideal) x2 (Rect.unit (s := S3x1024x128) ![0, 0, 0] ![1, 1024, 128] inbs))
        (View.ld (Val := Elt Ideal) xs0 (Rect.unit (s := S3x1024) ![0, 0] ![1, 1024] inba)) (ix2 (0 : Fin 1) r)
      = xs0 (ix2 (0 : Fin 3) r) + contribBlk x0 x1 x2 0 r := by
  refine (pay6_at x0 x1 _ _ r).trans ?_
  unfold contribBlk
  congr 1
  · exact ld_row xs0 0 inba r
  · exact Finset.sum_congr rfl fun c _ =>
      congrArg (fun t => (one - x1 (ix2 r c)) * Ideal.exp t) (dot_slab x0 x2 0 inbs r c)

/-- View 1's row. -/
theorem row1_val
    (inbs : ∀ a, (![1, 0, 0] : Fin 3 → Nat) a + (![1, 1024, 128] : Fin 3 → Nat) a ≤ S3x1024x128.size a)
    (inba : ∀ a, (![1, 0] : Fin 2 → Nat) a + (![1, 1024] : Fin 2 → Nat) a ≤ S3x1024.size a) (r : Fin 1024) :
    k0_pay10 (k0_pay3 x1)
        (k0_pay8 x0 (View.ld (Val := Elt Ideal) x2 (Rect.unit (s := S3x1024x128) ![1, 0, 0] ![1, 1024, 128] inbs)))
        (View.ld (Val := Elt Ideal) xs0 (Rect.unit (s := S3x1024) ![1, 0] ![1, 1024] inba)) (ix2 (0 : Fin 1) r)
      = xs0 (ix2 (1 : Fin 3) r) + contribBlk x0 x1 x2 1 r := by
  refine (pay10_at _ _ _ r).trans ?_
  unfold contribBlk
  congr 1
  · exact ld_row xs0 1 inba r
  · refine Finset.sum_congr rfl fun c _ => ?_
    rw [pay3_at x1 r c, pay8_at x0 _ r c]
    exact congrArg (fun t => (one - x1 (ix2 r c)) * Ideal.exp t) (dot_slab x0 x2 1 inbs r c)

/-- View 2's row. -/
theorem row2_val
    (inbs : ∀ a, (![2, 0, 0] : Fin 3 → Nat) a + (![1, 1024, 128] : Fin 3 → Nat) a ≤ S3x1024x128.size a)
    (inba : ∀ a, (![2, 0] : Fin 2 → Nat) a + (![1, 1024] : Fin 2 → Nat) a ≤ S3x1024.size a) (r : Fin 1024) :
    k0_pay13 (k0_pay2 x0) (k0_pay3 x1)
        (View.ld (Val := Elt Ideal) x2 (Rect.unit (s := S3x1024x128) ![2, 0, 0] ![1, 1024, 128] inbs))
        (View.ld (Val := Elt Ideal) xs0 (Rect.unit (s := S3x1024) ![2, 0] ![1, 1024] inba)) (ix2 (0 : Fin 1) r)
      = xs0 (ix2 (2 : Fin 3) r) + contribBlk x0 x1 x2 2 r := by
  refine (pay13_at _ _ _ _ r).trans ?_
  rw [pay2_eq x0]
  unfold contribBlk
  congr 1
  · exact ld_row xs0 2 inba r
  · refine Finset.sum_congr rfl fun c _ => ?_
    rw [pay3_at x1 r c]
    exact congrArg (fun t => (one - x1 (ix2 r c)) * Ideal.exp t) (dot_slab x0 x2 2 inbs r c)

end vals

/-! ## The accumulator after the three row stores -/

section accum

variable (x0 : Vec Ideal S1024x128 .bf16) (x1 : Vec Ideal S1024x1024 .f32) (x2 : Vec Ideal S3x1024x128 .bf16)
  (xs0 : Vec Ideal S3x1024 .f32)

theorem off2_zero : (![0, 0] : Fin 2 → Nat) = fun _ => 0 := by
  funext a; fin_cases a <;> rfl

/-- A load of a whole [1024, 128] tile is the tile. -/
theorem ld_whole_a (inb : ∀ a, (![0, 0] : Fin 2 → Nat) a + S1024x128.size a ≤ S1024x128.size a) :
    View.ld (Val := Elt Ideal) x0 (Rect.unit (s := S1024x128) ![0, 0] S1024x128.size inb) = x0 :=
  View.ld_unit_zero (S := S1024x128) off2_zero inb x0

/-- A load of a whole [1024, 1024] tile is the tile. -/
theorem ld_whole_b (inb : ∀ a, (![0, 0] : Fin 2 → Nat) a + S1024x1024.size a ≤ S1024x1024.size a) :
    View.ld (Val := Elt Ideal) x1 (Rect.unit (s := S1024x1024) ![0, 0] S1024x1024.size inb) = x1 :=
  View.ld_unit_zero (S := S1024x1024) off2_zero inb x1

/-- A load of the whole [3, 1024] accumulator is the accumulator. -/
theorem ld_whole_c (inb : ∀ a, (![0, 0] : Fin 2 → Nat) a + S3x1024.size a ≤ S3x1024.size a) :
    View.ld (Val := Elt Ideal) xs0 (Rect.unit (s := S3x1024) ![0, 0] S3x1024.size inb) = xs0 :=
  View.ld_unit_zero (S := S3x1024) off2_zero inb xs0

/-- The whole accumulator's rectangle places entry (v, r) at (v, r). -/
theorem idx_whole_c (inb : ∀ a, (![0, 0] : Fin 2 → Nat) a + S3x1024.size a ≤ S3x1024.size a) (v : Fin 3) (r : Fin 1024) :
    (Rect.unit (s := S3x1024) ![0, 0] S3x1024.size inb).idx (ix2 v r) = ix2 v r := by
  funext a; apply Fin.ext
  fin_cases a
  · show 0 + 1 * v.val = v.val; omega
  · show 0 + 1 * r.val = r.val; omega

/-- The three row stores over the loaded tiles leave, at (v, r), the old entry plus the tile's sum for view v. -/
theorem accum_at
    (inbA : ∀ a, (![0, 0] : Fin 2 → Nat) a + S1024x128.size a ≤ S1024x128.size a)
    (inbB : ∀ a, (![0, 0] : Fin 2 → Nat) a + S1024x1024.size a ≤ S1024x1024.size a)
    (inbS2 : ∀ a, (![2, 0, 0] : Fin 3 → Nat) a + (![1, 1024, 128] : Fin 3 → Nat) a ≤ S3x1024x128.size a)
    (inbS1 : ∀ a, (![1, 0, 0] : Fin 3 → Nat) a + (![1, 1024, 128] : Fin 3 → Nat) a ≤ S3x1024x128.size a)
    (inbS0 : ∀ a, (![0, 0, 0] : Fin 3 → Nat) a + (![1, 1024, 128] : Fin 3 → Nat) a ≤ S3x1024x128.size a)
    (inb2 : ∀ a, (![2, 0] : Fin 2 → Nat) a + (![1, 1024] : Fin 2 → Nat) a ≤ S3x1024.size a)
    (inb1 : ∀ a, (![1, 0] : Fin 2 → Nat) a + (![1, 1024] : Fin 2 → Nat) a ≤ S3x1024.size a)
    (inb0 : ∀ a, (![0, 0] : Fin 2 → Nat) a + (![1, 1024] : Fin 2 → Nat) a ≤ S3x1024.size a)
    (v : Fin 3) (r : Fin 1024) :
    View.canon (Val := Elt Ideal)
      [(⟨Rect.unit ![2, 0] ![1, 1024] inb2,
          k0_pay13 (k0_pay2 (View.ld (Val := Elt Ideal) x0 (Rect.unit (s := S1024x128) ![0, 0] S1024x128.size inbA)))
            (k0_pay3 (View.ld (Val := Elt Ideal) x1 (Rect.unit (s := S1024x1024) ![0, 0] S1024x1024.size inbB)))
            (View.ld (Val := Elt Ideal) x2 (Rect.unit (s := S3x1024x128) ![2, 0, 0] ![1, 1024, 128] inbS2))
            (View.ld (Val := Elt Ideal) xs0 (Rect.unit (s := S3x1024) ![2, 0] ![1, 1024] inb2))⟩ :
          View.Piece (Elt Ideal) S3x1024 .f32),
        ⟨Rect.unit ![1, 0] ![1, 1024] inb1,
          k0_pay10 (k0_pay3 (View.ld (Val := Elt Ideal) x1 (Rect.unit (s := S1024x1024) ![0, 0] S1024x1024.size inbB)))
            (k0_pay8 (View.ld (Val := Elt Ideal) x0 (Rect.unit (s := S1024x128) ![0, 0] S1024x128.size inbA))
              (View.ld (Val := Elt Ideal) x2 (Rect.unit (s := S3x1024x128) ![1, 0, 0] ![1, 1024, 128] inbS1)))
            (View.ld (Val := Elt Ideal) xs0 (Rect.unit (s := S3x1024) ![1, 0] ![1, 1024] inb1))⟩,
        ⟨Rect.unit ![0, 0] ![1, 1024] inb0,
          k0_pay6 (View.ld (Val := Elt Ideal) x0 (Rect.unit (s := S1024x128) ![0, 0] S1024x128.size inbA))
            (View.ld (Val := Elt Ideal) x1 (Rect.unit (s := S1024x1024) ![0, 0] S1024x1024.size inbB))
            (View.ld (Val := Elt Ideal) x2 (Rect.unit (s := S3x1024x128) ![0, 0, 0] ![1, 1024, 128] inbS0))
            (View.ld (Val := Elt Ideal) xs0 (Rect.unit (s := S3x1024) ![0, 0] ![1, 1024] inb0))⟩]
      (ix2 v r)
      = xs0 (ix2 v r) + contribBlk x0 x1 x2 v r := by
  rw [ld_whole_a x0 inbA, ld_whole_b x1 inbB]
  fin_cases v
  · exact (canon_rows_0 inb2 inb1 inb0 _ _ _ r).trans (row0_val x0 x1 x2 xs0 inbS0 inb0 r)
  · exact (canon_rows_1 inb2 inb1 inb0 _ _ _ r).trans (row1_val x0 x1 x2 xs0 inbS1 inb1 r)
  · exact (canon_rows_2 inb2 inb1 inb0 _ _ _ r).trans (row2_val x0 x1 x2 xs0 inbS2 inb2 r)

end accum

/-! ## The three statements -/

/-- Middle tile, off the diagonal: the denominator entry grows by the tile's sum. -/
theorem soutB0_at (c : Dev nD) (i : grid0.Coords) (arg2 : Memref sig .tc .vmem S1024x128 .bf16) (harg2 : arg2.IsWhole) (arg3 : Memref sig .tc .vmem S1024x1024 .f32) (harg3 : arg3.IsWhole) (arg4 : Memref sig .tc .vmem S3x1024x128 .bf16) (harg4 : arg4.IsWhole) (arg5 : Memref sig .tc .vmem S3x1024 .f32) (harg5 : arg5.IsWhole) (arg6 : Memref sig .tc .vmem S3x1024 .f32) (harg6 : arg6.IsWhole) (arg7 : Memref sig .tc .vmem S3x1024 .f32) (harg7 : arg7.IsWhole) (hc0 : ¬cond0_0 i) (hc1 : ¬cond0_1 i) (hc2 : ¬cond0_2 i) (hc3 : ¬cond0_3 i) (hc4 : ¬cond0_4 i)
    (x0 : Vec Ideal S1024x128 .bf16) (x1 : Vec Ideal S1024x1024 .f32) (x2 : Vec Ideal S3x1024x128 .bf16) (xs0 : Vec Ideal S3x1024 .f32) (xs1 : Vec Ideal S3x1024 .f32) (v : Fin 3) (r : Fin 1024) :
    sout0_B_0 (F := Ideal) c i arg2 harg2 arg3 harg3 arg4 harg4 arg5 harg5 arg6 harg6 arg7 harg7 hc0 hc1 hc2 hc3 hc4 x0 x1 x2 xs0 xs1 (ix2 v r)
      = xs0 (ix2 v r) + contribBlk x0 x1 x2 v r := by
  unfold sout0_B_0
  rw [View.read_writes_eq_canon _ _ _ (scover0_B_0 c i arg2 harg2 arg3 harg3 arg4 harg4 arg5 harg5 arg6 harg6 arg7 harg7 hc0 hc1 hc2 hc3 hc4 x0 x1 x2 xs0 xs1)]
  unfold kernelRun0_B
  dsimp only
  sl_unfold_words
  simp only [View.readAt_eq_ld, harg2.read_unread, harg3.read_unread, harg4.read_unread, harg6.read_unread]
  exact accum_at x0 x1 x2 xs0 _ _ _ _ _ _ _ _ v r

/-- Last tile, off the diagonal: the denominator entry grows by the tile's sum. -/
theorem soutC0_at (c : Dev nD) (i : grid0.Coords) (arg2 : Memref sig .tc .vmem S1024x128 .bf16) (harg2 : arg2.IsWhole) (arg3 : Memref sig .tc .vmem S1024x1024 .f32) (harg3 : arg3.IsWhole) (arg4 : Memref sig .tc .vmem S3x1024x128 .bf16) (harg4 : arg4.IsWhole) (arg5 : Memref sig .tc .vmem S3x1024 .f32) (harg5 : arg5.IsWhole) (arg6 : Memref sig .tc .vmem S3x1024 .f32) (harg6 : arg6.IsWhole) (arg7 : Memref sig .tc .vmem S3x1024 .f32) (harg7 : arg7.IsWhole) (hc0 : ¬cond0_0 i) (hc1 : ¬cond0_1 i) (hc2 : ¬cond0_2 i) (hc3 : ¬cond0_3 i) (hc4 : cond0_4 i)
    (x0 : Vec Ideal S1024x128 .bf16) (x1 : Vec Ideal S1024x1024 .f32) (x2 : Vec Ideal S3x1024x128 .bf16) (xs0 : Vec Ideal S3x1024 .f32) (xs1 : Vec Ideal S3x1024 .f32) (v : Fin 3) (r : Fin 1024) :
    sout0_C_0 (F := Ideal) c i arg2 harg2 arg3 harg3 arg4 harg4 arg5 harg5 arg6 harg6 arg7 harg7 hc0 hc1 hc2 hc3 hc4 x0 x1 x2 xs0 xs1 (ix2 v r)
      = xs0 (ix2 v r) + contribBlk x0 x1 x2 v r := by
  unfold sout0_C_0
  rw [View.read_writes_eq_canon _ _ _ (scover0_C_0 c i arg2 harg2 arg3 harg3 arg4 harg4 arg5 harg5 arg6 harg6 arg7 harg7 hc0 hc1 hc2 hc3 hc4 x0 x1 x2 xs0 xs1)]
  unfold kernelRun0_C
  dsimp only
  sl_unfold_words
  simp only [View.readAt_eq_ld, harg2.read_unread, harg3.read_unread, harg4.read_unread, harg6.read_unread]
  exact accum_at x0 x1 x2 xs0 _ _ _ _ _ _ _ _ v r

/-- Last tile, off the diagonal: the loss entry of the grown denominator and the carried positive score. -/
theorem outC3_at (c : Dev nD) (i : grid0.Coords) (arg2 : Memref sig .tc .vmem S1024x128 .bf16) (harg2 : arg2.IsWhole) (arg3 : Memref sig .tc .vmem S1024x1024 .f32) (harg3 : arg3.IsWhole) (arg4 : Memref sig .tc .vmem S3x1024x128 .bf16) (harg4 : arg4.IsWhole) (arg5 : Memref sig .tc .vmem S3x1024 .f32) (harg5 : arg5.IsWhole) (arg6 : Memref sig .tc .vmem S3x1024 .f32) (harg6 : arg6.IsWhole) (arg7 : Memref sig .tc .vmem S3x1024 .f32) (harg7 : arg7.IsWhole) (hc0 : ¬cond0_0 i) (hc1 : ¬cond0_1 i) (hc2 : ¬cond0_2 i) (hc3 : ¬cond0_3 i) (hc4 : cond0_4 i)
    (x0 : Vec Ideal S1024x128 .bf16) (x1 : Vec Ideal S1024x1024 .f32) (x2 : Vec Ideal S3x1024x128 .bf16) (xs0 : Vec Ideal S3x1024 .f32) (xs1 : Vec Ideal S3x1024 .f32) (v : Fin 3) (r : Fin 1024) :
    out0_C_3 (F := Ideal) c i arg2 harg2 arg3 harg3 arg4 harg4 arg5 harg5 arg6 harg6 arg7 harg7 hc0 hc1 hc2 hc3 hc4 x0 x1 x2 xs0 xs1 (ix2 v r)
      = lossOf (xs0 (ix2 v r) + contribBlk x0 x1 x2 v r) (xs1 (ix2 v r)) := by
  unfold out0_C_3
  rw [View.read_writes_eq_canon _ _ _ (cover0_C_3 c i arg2 harg2 arg3 harg3 arg4 harg4 arg5 harg5 arg6 harg6 arg7 harg7 hc0 hc1 hc2 hc3 hc4 x0 x1 x2 xs0 xs1)]
  unfold kernelRun0_C
  dsimp only
  sl_unfold_words
  simp only [View.readAt_eq_ld, harg2.read_unread, harg3.read_unread, harg4.read_unread, harg6.read_unread,
    harg7.read_unread, View.readCov_eq_canon']
  refine (congrFun (View.canon_unit_zero (S := S3x1024) off2_zero _ _) (ix2 v r)).trans ?_
  refine (pay15_at _ _ v r).trans ?_
  refine congrArg₂ lossOf ?_ (congrFun (ld_whole_c xs1 _) (ix2 v r))
  rw [idx_whole_c]
  exact accum_at x0 x1 x2 xs0 _ _ _ _ _ _ _ _ v r

end Cert.KernelIdeal.PiecesBC

end
-- ==== Proof.PiecesEF.lean ====
/-
  What the body leaves, entry by entry, at the diagonal tiles past the first column tile: a denominator entry grows by the
  tile's sum and the positive score is picked; at the last column tile the loss entry is written out from both.
-/
import proofs.«100503_j34299608826247_1_alg».proof.Proof.Gen.KernelIdeal.Frame
import proofs.«100503_j34299608826247_1_alg».proof.Proof.Payload
import proofs.«100503_j34299608826247_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.PiecesEF

open Idealize.ShloMosaic Idealize.ShloMosaic.TcCoe Idealize.ShloMosaic.ValueIdx Idealize.SL.Sem
open Cert.KernelIdeal Cert.KernelIdeal.Gen Cert.KernelIdeal.Pay Cert.Sgcl

/-! ## Three row pieces of a [3, 1024] buffer

  The body stores the accumulator one row (one view) at a time: rows 0, 1, 2, in that order, so the newest piece is row 2.
  At entry (v, r) the canonical contents are row v's payload at (0, r): the pieces of the other rows do not hold the entry. -/

section Rows

variable {Val : EltTy → Type} [∀ e, Nonempty (Val e)] {e : EltTy}

/-- Entry (0, r) of the row piece at row k = v is entry (v, r) of the buffer. -/
theorem emb_row (k : Nat) (v : Fin 3) (hk : k = v.val)
    (inb : ∀ a, (![k, 0] : Fin 2 → Nat) a + (![1, 1024] : Fin 2 → Nat) a ≤ S3x1024.size a) (r : Fin 1024) :
    (Rect.unit (s := S3x1024) ![k, 0] ![1, 1024] inb).emb (ix2 (0 : Fin 1) r) = ix2 v r := by
  funext a; apply Fin.ext
  match a with
  | ⟨0, _⟩ => show k + 1 * 0 = v.val; omega
  | ⟨1, _⟩ => show 0 + 1 * r.val = r.val; omega

/-- Entry (v, r) is not in the row piece at another row. -/
theorem not_mem_row (k : Nat) (v : Fin 3) (hk : k ≠ v.val)
    (inb : ∀ a, (![k, 0] : Fin 2 → Nat) a + (![1, 1024] : Fin 2 → Nat) a ≤ S3x1024.size a) (r : Fin 1024) :
    ix2 v r ∉ (Rect.unit (s := S3x1024) ![k, 0] ![1, 1024] inb).set := by
  intro hm
  have h := (Rect.mem_set_unit.mp hm) (0 : Fin 2)
  have h1 : k ≤ v.val := h.1
  have h2 : v.val < k + 1 := h.2
  omega

/-- The newest piece holding row v, read at (v, r). -/
theorem canon_row_hit (k : Nat) (v : Fin 3) (hk : k = v.val)
    (inb : ∀ a, (![k, 0] : Fin 2 → Nat) a + (![1, 1024] : Fin 2 → Nat) a ≤ S3x1024.size a)
    (w : S1x1024.Idx → Val e) (L : List (View.Piece Val S3x1024 e)) (r : Fin 1024) :
    View.canon ((⟨Rect.unit (s := S3x1024) ![k, 0] ![1, 1024] inb, w⟩ : View.Piece Val S3x1024 e) :: L) (ix2 v r)
      = w (ix2 (0 : Fin 1) r) :=
  (congrArg (View.canon _) (emb_row k v hk inb r).symm).trans
    (View.canon_cons_emb (Rect.unit (s := S3x1024) ![k, 0] ![1, 1024] inb) w L (ix2 (0 : Fin 1) r))

/-- A newer piece at another row is passed over. -/
theorem canon_row_skip (k : Nat) (v : Fin 3) (hk : k ≠ v.val)
    (inb : ∀ a, (![k, 0] : Fin 2 → Nat) a + (![1, 1024] : Fin 2 → Nat) a ≤ S3x1024.size a)
    (w : S1x1024.Idx → Val e) (L : List (View.Piece Val S3x1024 e)) (r : Fin 1024) :
    View.canon ((⟨Rect.unit (s := S3x1024) ![k, 0] ![1, 1024] inb, w⟩ : View.Piece Val S3x1024 e) :: L) (ix2 v r)
      = View.canon L (ix2 v r) :=
  View.canon_cons_of_not_mem _ L (not_mem_row k v hk inb r)

end Rows

/-! ## The loads

  A load of row k = v of a [3, 1024] array, at (0, r), is the array at (v, r); a load of slab k = v of a [3, 1024, 128] array,
  at (0, c, d), is the array at (v, c, d). -/

section Loads

variable {Val : EltTy → Type} {e : EltTy}

theorem ld_row (X : S3x1024.Idx → Val e) (k : Nat) (v : Fin 3) (hk : k = v.val)
    (inb : ∀ a, (![k, 0] : Fin 2 → Nat) a + (![1, 1024] : Fin 2 → Nat) a ≤ S3x1024.size a) (r : Fin 1024) :
    View.ld X (Rect.unit (s := S3x1024) ![k, 0] ![1, 1024] inb) (ix2 (0 : Fin 1) r) = X (ix2 v r) :=
  congrArg X (emb_row k v hk inb r)

theorem ld_slab (X : S3x1024x128.Idx → Val e) (k : Nat) (v : Fin 3) (hk : k = v.val)
    (inb : ∀ a, (![k, 0, 0] : Fin 3 → Nat) a + (![1, 1024, 128] : Fin 3 → Nat) a ≤ S3x1024x128.size a)
    (c : Fin 1024) (d : Fin 128) :
    View.ld X (Rect.unit (s := S3x1024x128) ![k, 0, 0] ![1, 1024, 128] inb) (ix3 (0 : Fin 1) c d) = X (ix3 v c d) := by
  refine congrArg X ?_
  funext a; apply Fin.ext
  match a with
  | ⟨0, _⟩ => show k + 1 * 0 = v.val; omega
  | ⟨1, _⟩ => show 0 + 1 * c.val = c.val; omega
  | ⟨2, _⟩ => show 0 + 1 * d.val = d.val; omega

end Loads

/-! ## One row's value

  The three views run three payload chains over the same loads; each gives the accumulator's entry plus the tile's sum. -/

theorem hz2 : (![0, 0] : Fin 2 → Nat) = fun _ => 0 := funext fun a => by fin_cases a <;> rfl

/-- The denominator entry of view v after the point's store of row v. -/
theorem den_at (x0 : Vec Ideal S1024x128 .bf16) (x1 : Vec Ideal S1024x1024 .f32) (x2 : Vec Ideal S3x1024x128 .bf16)
    (xs0 : Vec Ideal S3x1024 .f32)
    (i0 : ∀ a, (![0, 0] : Fin 2 → Nat) a + S1024x128.size a ≤ S1024x128.size a)
    (i1 : ∀ a, (![0, 0] : Fin 2 → Nat) a + S1024x1024.size a ≤ S1024x1024.size a)
    (j0 : ∀ a, (![0, 0, 0] : Fin 3 → Nat) a + (![1, 1024, 128] : Fin 3 → Nat) a ≤ S3x1024x128.size a)
    (j1 : ∀ a, (![1, 0, 0] : Fin 3 → Nat) a + (![1, 1024, 128] : Fin 3 → Nat) a ≤ S3x1024x128.size a)
    (j2 : ∀ a, (![2, 0, 0] : Fin 3 → Nat) a + (![1, 1024, 128] : Fin 3 → Nat) a ≤ S3x1024x128.size a)
    (k0 : ∀ a, (![0, 0] : Fin 2 → Nat) a + (![1, 1024] : Fin 2 → Nat) a ≤ S3x1024.size a)
    (k1 : ∀ a, (![1, 0] : Fin 2 → Nat) a + (![1, 1024] : Fin 2 → Nat) a ≤ S3x1024.size a)
    (k2 : ∀ a, (![2, 0] : Fin 2 → Nat) a + (![1, 1024] : Fin 2 → Nat) a ≤ S3x1024.size a)
    (r : Fin 1024) :
    (k0_pay6 (View.ld x0 (Rect.unit ![0, 0] ![1024, 128] i0)) (View.ld x1 (Rect.unit ![0, 0] ![1024, 1024] i1))
        (View.ld x2 (Rect.unit ![0, 0, 0] ![1, 1024, 128] j0)) (View.ld xs0 (Rect.unit ![0, 0] ![1, 1024] k0)) (ix2 (0 : Fin 1) r)
      = xs0 (ix2 (0 : Fin 3) r) + contribBlk x0 x1 x2 0 r)
    ∧ (k0_pay10 (k0_pay3 (View.ld x1 (Rect.unit ![0, 0] ![1024, 1024] i1)))
        (k0_pay8 (View.ld x0 (Rect.unit ![0, 0] ![1024, 128] i0)) (View.ld x2 (Rect.unit ![1, 0, 0] ![1, 1024, 128] j1)))
        (View.ld xs0 (Rect.unit ![1, 0] ![1, 1024] k1)) (ix2 (0 : Fin 1) r)
      = xs0 (ix2 (1 : Fin 3) r) + contribBlk x0 x1 x2 1 r)
    ∧ (k0_pay13 (k0_pay2 (View.ld x0 (Rect.unit ![0, 0] ![1024, 128] i0))) (k0_pay3 (View.ld x1 (Rect.unit ![0, 0] ![1024, 1024] i1)))
        (View.ld x2 (Rect.unit ![2, 0, 0] ![1, 1024, 128] j2)) (View.ld xs0 (Rect.unit ![2, 0] ![1, 1024] k2)) (ix2 (0 : Fin 1) r)
      = xs0 (ix2 (2 : Fin 3) r) + contribBlk x0 x1 x2 2 r) := by
  rw [View.ld_unit_zero (S := S1024x128) hz2, View.ld_unit_zero (S := S1024x1024) hz2]
  refine ⟨?_, ?_, ?_⟩
  · refine (pay6_at _ _ _ _ r).trans ?_
    rw [ld_row xs0 0 0 rfl]
    unfold contribBlk simBlk dotBlk
    refine congrArg _ (Finset.sum_congr rfl fun c _ => ?_)
    simp only [ld_slab x2 0 0 rfl]
  · refine (pay10_at _ _ _ r).trans ?_
    rw [ld_row xs0 1 1 rfl]
    unfold contribBlk simBlk
    refine congrArg _ (Finset.sum_congr rfl fun c _ => ?_)
    rw [pay3_at, pay8_at]
    unfold dotBlk
    simp only [ld_slab x2 1 1 rfl]
  · refine (pay13_at _ _ _ _ r).trans ?_
    rw [ld_row xs0 2 2 rfl, pay2_eq]
    unfold contribBlk simBlk dotBlk
    refine congrArg _ (Finset.sum_congr rfl fun c _ => ?_)
    rw [pay3_at]
    simp only [ld_slab x2 2 2 rfl]

/-- The positive entry of view v after the point's store of row v: the diagonal score. -/
theorem pick_at (x0 : Vec Ideal S1024x128 .bf16) (x2 : Vec Ideal S3x1024x128 .bf16)
    (i0 : ∀ a, (![0, 0] : Fin 2 → Nat) a + S1024x128.size a ≤ S1024x128.size a)
    (j0 : ∀ a, (![0, 0, 0] : Fin 3 → Nat) a + (![1, 1024, 128] : Fin 3 → Nat) a ≤ S3x1024x128.size a)
    (j1 : ∀ a, (![1, 0, 0] : Fin 3 → Nat) a + (![1, 1024, 128] : Fin 3 → Nat) a ≤ S3x1024x128.size a)
    (j2 : ∀ a, (![2, 0, 0] : Fin 3 → Nat) a + (![1, 1024, 128] : Fin 3 → Nat) a ≤ S3x1024x128.size a)
    (r : Fin 1024) :
    (k0_pay7 (View.ld x0 (Rect.unit ![0, 0] ![1024, 128] i0)) (View.ld x2 (Rect.unit ![0, 0, 0] ![1, 1024, 128] j0))
        (ix2 (0 : Fin 1) r) = simBlk x0 x2 0 r r)
    ∧ (k0_pay11 k0_pay4 (k0_pay8 (View.ld x0 (Rect.unit ![0, 0] ![1024, 128] i0))
          (View.ld x2 (Rect.unit ![1, 0, 0] ![1, 1024, 128] j1))) (ix2 (0 : Fin 1) r) = simBlk x0 x2 1 r r)
    ∧ (k0_pay14 (k0_pay2 (View.ld x0 (Rect.unit ![0, 0] ![1024, 128] i0))) k0_pay4
          (View.ld x2 (Rect.unit ![2, 0, 0] ![1, 1024, 128] j2)) (ix2 (0 : Fin 1) r) = simBlk x0 x2 2 r r) := by
  rw [View.ld_unit_zero (S := S1024x128) hz2]
  refine ⟨?_, ?_, ?_⟩
  · refine (pay7_at _ _ r).trans ?_
    unfold simBlk dotBlk
    simp only [ld_slab x2 0 0 rfl]
  · refine (pay11_at _ r).trans ?_
    rw [pay8_at]
    unfold simBlk dotBlk
    simp only [ld_slab x2 1 1 rfl]
  · refine (pay14_at _ _ r).trans ?_
    rw [pay2_eq]
    unfold simBlk dotBlk
    simp only [ld_slab x2 2 2 rfl]

/-! ## The two carried buffers after the point's stores

  Both are three row pieces over the same loads of the tiles. -/

/-- The denominators: entry (v, r) is what the accumulator held there plus the tile's sum for view v. -/
theorem den_canon (x0 : Vec Ideal S1024x128 .bf16) (x1 : Vec Ideal S1024x1024 .f32) (x2 : Vec Ideal S3x1024x128 .bf16)
    (xs0 : Vec Ideal S3x1024 .f32) (v : Fin 3) (r : Fin 1024) :
    View.canon ([⟨Rect.unit (s := S3x1024) ![2, 0] ![1, 1024] inb_S3x1024_S1x1024_2_0,
          k0_pay13 (k0_pay2 (View.ld x0 (Rect.unit ![0, 0] ![1024, 128] inb_S1024x128_S1024x128_0_0)))
            (k0_pay3 (View.ld x1 (Rect.unit ![0, 0] ![1024, 1024] inb_S1024x1024_S1024x1024_0_0)))
            (View.ld x2 (Rect.unit ![2, 0, 0] ![1, 1024, 128] inb_S3x1024x128_S1x1024x128_2_0_0))
            (View.ld xs0 (Rect.unit ![2, 0] ![1, 1024] inb_S3x1024_S1x1024_2_0))⟩,
        ⟨Rect.unit (s := S3x1024) ![1, 0] ![1, 1024] inb_S3x1024_S1x1024_1_0,
          k0_pay10 (k0_pay3 (View.ld x1 (Rect.unit ![0, 0] ![1024, 1024] inb_S1024x1024_S1024x1024_0_0)))
            (k0_pay8 (View.ld x0 (Rect.unit ![0, 0] ![1024, 128] inb_S1024x128_S1024x128_0_0))
              (View.ld x2 (Rect.unit ![1, 0, 0] ![1, 1024, 128] inb_S3x1024x128_S1x1024x128_1_0_0)))
            (View.ld xs0 (Rect.unit ![1, 0] ![1, 1024] inb_S3x1024_S1x1024_1_0))⟩,
        ⟨Rect.unit (s := S3x1024) ![0, 0] ![1, 1024] inb_S3x1024_S1x1024_0_0,
          k0_pay6 (View.ld x0 (Rect.unit ![0, 0] ![1024, 128] inb_S1024x128_S1024x128_0_0))
            (View.ld x1 (Rect.unit ![0, 0] ![1024, 1024] inb_S1024x1024_S1024x1024_0_0))
            (View.ld x2 (Rect.unit ![0, 0, 0] ![1, 1024, 128] inb_S3x1024x128_S1x1024x128_0_0_0))
            (View.ld xs0 (Rect.unit ![0, 0] ![1, 1024] inb_S3x1024_S1x1024_0_0))⟩] : List (View.Piece (Elt Ideal) S3x1024 .f32)) (ix2 v r)
      = xs0 (ix2 v r) + contribBlk x0 x1 x2 v r := by
  match v with
  | ⟨0, h⟩ =>
    refine (canon_row_skip 2 ⟨0, h⟩ (show (2 : Nat) ≠ 0 by decide) _ _ _ r).trans ?_
    refine (canon_row_skip 1 ⟨0, h⟩ (show (1 : Nat) ≠ 0 by decide) _ _ _ r).trans ?_
    refine (canon_row_hit 0 ⟨0, h⟩ rfl _ _ _ r).trans ?_
    exact (den_at x0 x1 x2 xs0 _ _ _ inb_S3x1024x128_S1x1024x128_1_0_0 inb_S3x1024x128_S1x1024x128_2_0_0 _ inb_S3x1024_S1x1024_1_0 inb_S3x1024_S1x1024_2_0 r).1
  | ⟨1, h⟩ =>
    refine (canon_row_skip 2 ⟨1, h⟩ (show (2 : Nat) ≠ 1 by decide) _ _ _ r).trans ?_
    refine (canon_row_hit 1 ⟨1, h⟩ rfl _ _ _ r).trans ?_
    exact (den_at x0 x1 x2 xs0 _ _ inb_S3x1024x128_S1x1024x128_0_0_0 _ inb_S3x1024x128_S1x1024x128_2_0_0 inb_S3x1024_S1x1024_0_0 _ inb_S3x1024_S1x1024_2_0 r).2.1
  | ⟨2, h⟩ =>
    refine (canon_row_hit 2 ⟨2, h⟩ rfl _ _ _ r).trans ?_
    exact (den_at x0 x1 x2 xs0 _ _ inb_S3x1024x128_S1x1024x128_0_0_0 inb_S3x1024x128_S1x1024x128_1_0_0 _ inb_S3x1024_S1x1024_0_0 inb_S3x1024_S1x1024_1_0 _ r).2.2

/-- The positive scores: entry (v, r) is the diagonal score of view v. -/
theorem pick_canon (x0 : Vec Ideal S1024x128 .bf16) (x2 : Vec Ideal S3x1024x128 .bf16) (v : Fin 3) (r : Fin 1024) :
    View.canon ([⟨Rect.unit (s := S3x1024) ![2, 0] ![1, 1024] inb_S3x1024_S1x1024_2_0,
          k0_pay14 (k0_pay2 (View.ld x0 (Rect.unit ![0, 0] ![1024, 128] inb_S1024x128_S1024x128_0_0))) k0_pay4
            (View.ld x2 (Rect.unit ![2, 0, 0] ![1, 1024, 128] inb_S3x1024x128_S1x1024x128_2_0_0))⟩,
        ⟨Rect.unit (s := S3x1024) ![1, 0] ![1, 1024] inb_S3x1024_S1x1024_1_0,
          k0_pay11 k0_pay4
            (k0_pay8 (View.ld x0 (Rect.unit ![0, 0] ![1024, 128] inb_S1024x128_S1024x128_0_0))
              (View.ld x2 (Rect.unit ![1, 0, 0] ![1, 1024, 128] inb_S3x1024x128_S1x1024x128_1_0_0)))⟩,
        ⟨Rect.unit (s := S3x1024) ![0, 0] ![1, 1024] inb_S3x1024_S1x1024_0_0,
          k0_pay7 (View.ld x0 (Rect.unit ![0, 0] ![1024, 128] inb_S1024x128_S1024x128_0_0))
            (View.ld x2 (Rect.unit ![0, 0, 0] ![1, 1024, 128] inb_S3x1024x128_S1x1024x128_0_0_0))⟩] : List (View.Piece (Elt Ideal) S3x1024 .f32)) (ix2 v r)
      = simBlk x0 x2 v r r := by
  match v with
  | ⟨0, h⟩ =>
    refine (canon_row_skip 2 ⟨0, h⟩ (show (2 : Nat) ≠ 0 by decide) _ _ _ r).trans ?_
    refine (canon_row_skip 1 ⟨0, h⟩ (show (1 : Nat) ≠ 0 by decide) _ _ _ r).trans ?_
    refine (canon_row_hit 0 ⟨0, h⟩ rfl _ _ _ r).trans ?_
    exact (pick_at x0 x2 _ _ inb_S3x1024x128_S1x1024x128_1_0_0 inb_S3x1024x128_S1x1024x128_2_0_0 r).1
  | ⟨1, h⟩ =>
    refine (canon_row_skip 2 ⟨1, h⟩ (show (2 : Nat) ≠ 1 by decide) _ _ _ r).trans ?_
    refine (canon_row_hit 1 ⟨1, h⟩ rfl _ _ _ r).trans ?_
    exact (pick_at x0 x2 _ inb_S3x1024x128_S1x1024x128_0_0_0 _ inb_S3x1024x128_S1x1024x128_2_0_0 r).2.1
  | ⟨2, h⟩ =>
    refine (canon_row_hit 2 ⟨2, h⟩ rfl _ _ _ r).trans ?_
    exact (pick_at x0 x2 _ inb_S3x1024x128_S1x1024x128_0_0_0 inb_S3x1024x128_S1x1024x128_1_0_0 _ r).2.2

/-- A load of the whole buffer after the stores reads, at (v, r), the canonical contents there. -/
theorem readCov_whole_at {sig : RefSig} {κ : Kind} {sp : Space} {Val : EltTy → Type} [∀ e, Nonempty (Val e)] {e : EltTy}
    (vw : View sig κ sp S3x1024 e) (L : List (View.Piece Val S3x1024 e))
    (inb : ∀ a, (![0, 0] : Fin 2 → Nat) a + S3x1024.size a ≤ S3x1024.size a) (v : Fin 3) (r : Fin 1024) :
    vw.readCov L (Rect.unit (s := S3x1024) ![0, 0] S3x1024.size inb).toLoadRect (ix2 v r) = View.canon L (ix2 v r) := by
  rw [View.readCov_eq_canon']
  refine congrArg (View.canon L) ?_
  funext a; apply Fin.ext
  match a with
  | ⟨0, _⟩ => show 0 + 1 * v.val = v.val; omega
  | ⟨1, _⟩ => show 0 + 1 * r.val = r.val; omega

/-! ## What the body leaves at the diagonal tiles -/

/-- Diagonal tile, not the last: the denominator entry grows by the tile's sum. -/
theorem soutE0_at (c : Dev nD) (i : grid0.Coords) (arg2 : Memref sig .tc .vmem S1024x128 .bf16) (harg2 : arg2.IsWhole) (arg3 : Memref sig .tc .vmem S1024x1024 .f32) (harg3 : arg3.IsWhole) (arg4 : Memref sig .tc .vmem S3x1024x128 .bf16) (harg4 : arg4.IsWhole) (arg5 : Memref sig .tc .vmem S3x1024 .f32) (harg5 : arg5.IsWhole) (arg6 : Memref sig .tc .vmem S3x1024 .f32) (harg6 : arg6.IsWhole) (arg7 : Memref sig .tc .vmem S3x1024 .f32) (harg7 : arg7.IsWhole) (hc0 : ¬cond0_0 i) (hc1 : cond0_1 i) (hc2 : cond0_2 i) (hc3 : cond0_3 i) (hc4 : ¬cond0_4 i)
    (x0 : Vec Ideal S1024x128 .bf16) (x1 : Vec Ideal S1024x1024 .f32) (x2 : Vec Ideal S3x1024x128 .bf16) (xs0 : Vec Ideal S3x1024 .f32) (v : Fin 3) (r : Fin 1024) :
    sout0_E_0 (F := Ideal) c i arg2 harg2 arg3 harg3 arg4 harg4 arg5 harg5 arg6 harg6 arg7 harg7 hc0 hc1 hc2 hc3 hc4 x0 x1 x2 xs0 (ix2 v r)
      = xs0 (ix2 v r) + contribBlk x0 x1 x2 v r := by
  unfold sout0_E_0
  rw [View.read_writes_eq_canon _ _ _ (scover0_E_0 c i arg2 harg2 arg3 harg3 arg4 harg4 arg5 harg5 arg6 harg6 arg7 harg7 hc0 hc1 hc2 hc3 hc4 x0 x1 x2 xs0)]
  unfold kernelRun0_E
  dsimp only
  sl_unfold_words
  simp only [View.readAt_eq_ld, harg2.read_unread, harg3.read_unread, harg4.read_unread, harg6.read_unread]
  exact den_canon x0 x1 x2 xs0 v r

/-- Diagonal tile, not the last: the positive entry is the diagonal score. -/
theorem soutE1_at (c : Dev nD) (i : grid0.Coords) (arg2 : Memref sig .tc .vmem S1024x128 .bf16) (harg2 : arg2.IsWhole) (arg3 : Memref sig .tc .vmem S1024x1024 .f32) (harg3 : arg3.IsWhole) (arg4 : Memref sig .tc .vmem S3x1024x128 .bf16) (harg4 : arg4.IsWhole) (arg5 : Memref sig .tc .vmem S3x1024 .f32) (harg5 : arg5.IsWhole) (arg6 : Memref sig .tc .vmem S3x1024 .f32) (harg6 : arg6.IsWhole) (arg7 : Memref sig .tc .vmem S3x1024 .f32) (harg7 : arg7.IsWhole) (hc0 : ¬cond0_0 i) (hc1 : cond0_1 i) (hc2 : cond0_2 i) (hc3 : cond0_3 i) (hc4 : ¬cond0_4 i)
    (x0 : Vec Ideal S1024x128 .bf16) (x1 : Vec Ideal S1024x1024 .f32) (x2 : Vec Ideal S3x1024x128 .bf16) (xs0 : Vec Ideal S3x1024 .f32) (v : Fin 3) (r : Fin 1024) :
    sout0_E_1 (F := Ideal) c i arg2 harg2 arg3 harg3 arg4 harg4 arg5 harg5 arg6 harg6 arg7 harg7 hc0 hc1 hc2 hc3 hc4 x0 x1 x2 xs0 (ix2 v r)
      = simBlk x0 x2 v r r := by
  unfold sout0_E_1
  rw [View.read_writes_eq_canon _ _ _ (scover0_E_1 c i arg2 harg2 arg3 harg3 arg4 harg4 arg5 harg5 arg6 harg6 arg7 harg7 hc0 hc1 hc2 hc3 hc4 x0 x1 x2 xs0)]
  unfold kernelRun0_E
  dsimp only
  sl_unfold_words
  simp only [View.readAt_eq_ld, harg2.read_unread, harg3.read_unread, harg4.read_unread, harg6.read_unread]
  exact pick_canon x0 x2 v r

/-- Diagonal and last tile: the denominator entry grows by the tile's sum. -/
theorem soutF0_at (c : Dev nD) (i : grid0.Coords) (arg2 : Memref sig .tc .vmem S1024x128 .bf16) (harg2 : arg2.IsWhole) (arg3 : Memref sig .tc .vmem S1024x1024 .f32) (harg3 : arg3.IsWhole) (arg4 : Memref sig .tc .vmem S3x1024x128 .bf16) (harg4 : arg4.IsWhole) (arg5 : Memref sig .tc .vmem S3x1024 .f32) (harg5 : arg5.IsWhole) (arg6 : Memref sig .tc .vmem S3x1024 .f32) (harg6 : arg6.IsWhole) (arg7 : Memref sig .tc .vmem S3x1024 .f32) (harg7 : arg7.IsWhole) (hc0 : ¬cond0_0 i) (hc1 : cond0_1 i) (hc2 : cond0_2 i) (hc3 : cond0_3 i) (hc4 : cond0_4 i)
    (x0 : Vec Ideal S1024x128 .bf16) (x1 : Vec Ideal S1024x1024 .f32) (x2 : Vec Ideal S3x1024x128 .bf16) (xs0 : Vec Ideal S3x1024 .f32) (v : Fin 3) (r : Fin 1024) :
    sout0_F_0 (F := Ideal) c i arg2 harg2 arg3 harg3 arg4 harg4 arg5 harg5 arg6 harg6 arg7 harg7 hc0 hc1 hc2 hc3 hc4 x0 x1 x2 xs0 (ix2 v r)
      = xs0 (ix2 v r) + contribBlk x0 x1 x2 v r := by
  unfold sout0_F_0
  rw [View.read_writes_eq_canon _ _ _ (scover0_F_0 c i arg2 harg2 arg3 harg3 arg4 harg4 arg5 harg5 arg6 harg6 arg7 harg7 hc0 hc1 hc2 hc3 hc4 x0 x1 x2 xs0)]
  unfold kernelRun0_F
  dsimp only
  sl_unfold_words
  simp only [View.readAt_eq_ld, harg2.read_unread, harg3.read_unread, harg4.read_unread, harg6.read_unread]
  exact den_canon x0 x1 x2 xs0 v r

/-- Diagonal and last tile: the positive entry is the diagonal score. -/
theorem soutF1_at (c : Dev nD) (i : grid0.Coords) (arg2 : Memref sig .tc .vmem S1024x128 .bf16) (harg2 : arg2.IsWhole) (arg3 : Memref sig .tc .vmem S1024x1024 .f32) (harg3 : arg3.IsWhole) (arg4 : Memref sig .tc .vmem S3x1024x128 .bf16) (harg4 : arg4.IsWhole) (arg5 : Memref sig .tc .vmem S3x1024 .f32) (harg5 : arg5.IsWhole) (arg6 : Memref sig .tc .vmem S3x1024 .f32) (harg6 : arg6.IsWhole) (arg7 : Memref sig .tc .vmem S3x1024 .f32) (harg7 : arg7.IsWhole) (hc0 : ¬cond0_0 i) (hc1 : cond0_1 i) (hc2 : cond0_2 i) (hc3 : cond0_3 i) (hc4 : cond0_4 i)
    (x0 : Vec Ideal S1024x128 .bf16) (x1 : Vec Ideal S1024x1024 .f32) (x2 : Vec Ideal S3x1024x128 .bf16) (xs0 : Vec Ideal S3x1024 .f32) (v : Fin 3) (r : Fin 1024) :
    sout0_F_1 (F := Ideal) c i arg2 harg2 arg3 harg3 arg4 harg4 arg5 harg5 arg6 harg6 arg7 harg7 hc0 hc1 hc2 hc3 hc4 x0 x1 x2 xs0 (ix2 v r)
      = simBlk x0 x2 v r r := by
  unfold sout0_F_1
  rw [View.read_writes_eq_canon _ _ _ (scover0_F_1 c i arg2 harg2 arg3 harg3 arg4 harg4 arg5 harg5 arg6 harg6 arg7 harg7 hc0 hc1 hc2 hc3 hc4 x0 x1 x2 xs0)]
  unfold kernelRun0_F
  dsimp only
  sl_unfold_words
  simp only [View.readAt_eq_ld, harg2.read_unread, harg3.read_unread, harg4.read_unread, harg6.read_unread]
  exact pick_canon x0 x2 v r

/-- Diagonal and last tile: the loss entry of the grown denominator and the diagonal score. -/
theorem outF3_at (c : Dev nD) (i : grid0.Coords) (arg2 : Memref sig .tc .vmem S1024x128 .bf16) (harg2 : arg2.IsWhole) (arg3 : Memref sig .tc .vmem S1024x1024 .f32) (harg3 : arg3.IsWhole) (arg4 : Memref sig .tc .vmem S3x1024x128 .bf16) (harg4 : arg4.IsWhole) (arg5 : Memref sig .tc .vmem S3x1024 .f32) (harg5 : arg5.IsWhole) (arg6 : Memref sig .tc .vmem S3x1024 .f32) (harg6 : arg6.IsWhole) (arg7 : Memref sig .tc .vmem S3x1024 .f32) (harg7 : arg7.IsWhole) (hc0 : ¬cond0_0 i) (hc1 : cond0_1 i) (hc2 : cond0_2 i) (hc3 : cond0_3 i) (hc4 : cond0_4 i)
    (x0 : Vec Ideal S1024x128 .bf16) (x1 : Vec Ideal S1024x1024 .f32) (x2 : Vec Ideal S3x1024x128 .bf16) (xs0 : Vec Ideal S3x1024 .f32) (v : Fin 3) (r : Fin 1024) :
    out0_F_3 (F := Ideal) c i arg2 harg2 arg3 harg3 arg4 harg4 arg5 harg5 arg6 harg6 arg7 harg7 hc0 hc1 hc2 hc3 hc4 x0 x1 x2 xs0 (ix2 v r)
      = lossOf (xs0 (ix2 v r) + contribBlk x0 x1 x2 v r) (simBlk x0 x2 v r r) := by
  unfold out0_F_3
  rw [View.read_writes_eq_canon _ _ _ (cover0_F_3 c i arg2 harg2 arg3 harg3 arg4 harg4 arg5 harg5 arg6 harg6 arg7 harg7 hc0 hc1 hc2 hc3 hc4 x0 x1 x2 xs0)]
  unfold kernelRun0_F
  dsimp only
  sl_unfold_words
  simp only [View.readAt_eq_ld, harg2.read_unread, harg3.read_unread, harg4.read_unread, harg6.read_unread]
  rw [View.canon_unit_zero (S := S3x1024) hz2]
  refine (pay15_at _ _ v r).trans ?_
  refine congrArg₂ lossOf ?_ ?_
  · exact (readCov_whole_at _ _ _ v r).trans (den_canon x0 x1 x2 xs0 v r)
  · exact (readCov_whole_at _ _ _ v r).trans (pick_canon x0 x2 v r)

end Cert.KernelIdeal.PiecesEF

end
-- ==== Proof.Invariant.lean ====
/-
  What the two accumulators and the output tile hold after each grid point, in terms of the whole arrays.

  After the point of row tile `i = n / 8` and column tile `j = n % 8`: the denominator entry (v, r) is the sum over the
  column tiles `0 … j` of each tile's sum of the terms of row `1024 i + r`; from the diagonal tile on (`i ≤ j`) the
  positive entry is the row's score against itself; at the last column tile the output tile holds the row's loss entries.
  By induction on the point: a point either resets or extends the denominator by its own tile, keeps or picks the
  positive score, and at `j = 7` writes the loss from both.
-/
import proofs.«100503_j34299608826247_1_alg».proof.Proof.Gen.KernelIdeal.Frame
import proofs.«100503_j34299608826247_1_alg».proof.Proof.Blocks
import proofs.«100503_j34299608826247_1_alg».proof.Proof.PiecesAD
import proofs.«100503_j34299608826247_1_alg».proof.Proof.PiecesBC
import proofs.«100503_j34299608826247_1_alg».proof.Proof.PiecesEF
import proofs.«100503_j34299608826247_1_alg».proof.Proof.Spec
import Idealize.ShloMosaic.Lib.Pipeline.Value
import Idealize.ShloMosaic.Lib.ValueIdx

set_option maxRecDepth 16384

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Blk Cert.Sgcl
open Cert.KernelIdeal.PiecesAD Cert.KernelIdeal.PiecesBC Cert.KernelIdeal.PiecesEF

variable (m : (ℓ : Loc nD τ sig) → Buf (Elt Ideal) ℓ)

/-- A tile's score is the whole arrays' score at the tile's row and column. -/
theorem simBlk_eq (c : Dev nD) (t : Fin cfg0.N) (v : Fin 3) (r cc : Fin 1024) :
    simBlk (blk0 m c t) (blk2 m c t) v r cc = sim (hcArr m c) (hvArr m c) v (rowOf t r) (at8 t.val cc) := by
  unfold simBlk sim
  refine congrArg (· * two) (Finset.sum_congr rfl fun d _ => ?_)
  rw [blk0_at, blk2_at]

/-- A tile's sum is the sum of the row's terms over the tile's columns. -/
theorem contribBlk_eq (c : Dev nD) (t : Fin cfg0.N) (v : Fin 3) (r : Fin 1024) :
    contribBlk (blk0 m c t) (blk1 m c t) (blk2 m c t) v r
      = ∑ cc : Fin 1024, term (hcArr m c) (sArr m c) (hvArr m c) v (rowOf t r) (at8 t.val cc) := by
  unfold contribBlk term
  refine Finset.sum_congr rfl fun cc _ => ?_
  rw [blk1_at, simBlk_eq]

/-- On the diagonal tile a row's own column is the row. -/
theorem at8_diag (t : Fin cfg0.N) (h : t.val % 9 = 0) (r : Fin 1024) : at8 t.val r = rowOf t r := by
  have hN : cfg0.N = 64 := N_0
  have := t.isLt
  apply Fin.ext
  show (t.val % 8) * 1024 + r.val = (t.val / 8) * 1024 + r.val
  omega

/-- The three facts after point `n`. -/
def Holds (c : Dev nD) (n : ℕ) (hn : n < cfg0.N) : Prop :=
  (∀ (v : Fin 3) (r : Fin 1024), (outsAt0 m c n hn).2.1 (ix2 v r)
      = ∑ j ∈ Finset.range (n % 8 + 1), ∑ cc : Fin 1024, term (hcArr m c) (sArr m c) (hvArr m c) v (rowOf ⟨n, hn⟩ r) (at8 j cc))
  ∧ (n / 8 ≤ n % 8 → ∀ (v : Fin 3) (r : Fin 1024), (outsAt0 m c n hn).2.2 (ix2 v r)
      = sim (hcArr m c) (hvArr m c) v (rowOf ⟨n, hn⟩ r) (rowOf ⟨n, hn⟩ r))
  ∧ (n % 8 = 7 → ∀ (v : Fin 3) (r : Fin 1024), (outsAt0 m c n hn).1 (ix2 v r)
      = loss (hcArr m c) (sArr m c) (hvArr m c) (ix2 v (rowOf ⟨n, hn⟩ r)))

/-- The first tile's own sum is the sum over the tiles `0 … 0`. -/
theorem first_tile (c : Dev nD) (t : Fin cfg0.N) (h0 : t.val % 8 = 0) (v : Fin 3) (r : Fin 1024) :
    contribBlk (blk0 m c t) (blk1 m c t) (blk2 m c t) v r
      = ∑ j ∈ Finset.range (t.val % 8 + 1), ∑ cc : Fin 1024, term (hcArr m c) (sArr m c) (hvArr m c) v (rowOf t r) (at8 j cc) := by
  rw [contribBlk_eq, h0, Finset.sum_range_one]
  refine Finset.sum_congr rfl fun cc _ => ?_
  refine congrArg _ (Fin.ext ?_)
  show (t.val % 8) * 1024 + cc.val = (0 % 8) * 1024 + cc.val
  rw [h0]

/-- A later tile extends the sum over the tiles before it. -/
theorem next_tile (c : Dev nD) (n : ℕ) (hn : n + 1 < cfg0.N) (h0 : ¬(n + 1) % 8 = 0) (v : Fin 3) (r : Fin 1024) :
    (∑ j ∈ Finset.range (n % 8 + 1), ∑ cc : Fin 1024, term (hcArr m c) (sArr m c) (hvArr m c) v (rowOf ⟨n, Nat.lt_of_succ_lt hn⟩ r) (at8 j cc))
      + contribBlk (blk0 m c ⟨n + 1, hn⟩) (blk1 m c ⟨n + 1, hn⟩) (blk2 m c ⟨n + 1, hn⟩) v r
      = ∑ j ∈ Finset.range ((n + 1) % 8 + 1), ∑ cc : Fin 1024, term (hcArr m c) (sArr m c) (hvArr m c) v (rowOf ⟨n + 1, hn⟩ r) (at8 j cc) := by
  have hrow : rowOf ⟨n, Nat.lt_of_succ_lt hn⟩ r = rowOf ⟨n + 1, hn⟩ r := Fin.ext (by
    show (n / 8) * 1024 + r.val = ((n + 1) / 8) * 1024 + r.val
    omega)
  have hj : (n + 1) % 8 = n % 8 + 1 := by omega
  rw [contribBlk_eq, hj, Finset.sum_range_succ (n := n % 8 + 1), hrow]
  refine congrArg _ (Finset.sum_congr rfl fun cc _ => ?_)
  refine congrArg _ (Fin.ext ?_)
  show ((n + 1) % 8) * 1024 + cc.val = ((n % 8 + 1) % 8) * 1024 + cc.val
  omega

/-- With all eight tiles in, the loss entry of the denominator and the row's own score is the loss array's entry. -/
theorem loss_of_full (c : Dev nD) (t : Fin cfg0.N) (h7 : t.val % 8 = 7) (v : Fin 3) (r : Fin 1024) :
    lossOf (∑ j ∈ Finset.range (t.val % 8 + 1), ∑ cc : Fin 1024, term (hcArr m c) (sArr m c) (hvArr m c) v (rowOf t r) (at8 j cc))
        (sim (hcArr m c) (hvArr m c) v (rowOf t r) (rowOf t r))
      = loss (hcArr m c) (sArr m c) (hvArr m c) (ix2 v (rowOf t r)) := by
  rw [h7, sum_tiles]
  rfl

/-- The three facts hold after every point. -/
theorem holds (c : Dev nD) : ∀ (n : ℕ) (hn : n < cfg0.N), Holds m c n hn
  | 0, hn => by
    have hA := outsAt0_A m c ⟨0, hn⟩ rfl rfl rfl rfl (show ¬(0 % 8 = 7) by decide)
    refine ⟨fun v r => ?_, fun _ v r => ?_, fun h => absurd h (by decide)⟩
    · show (outsAt0 m c (⟨0, hn⟩ : Fin cfg0.N).val (⟨0, hn⟩ : Fin cfg0.N).isLt).2.1 (ix2 v r) = _
      rw [hA]; dsimp only
      refine (soutA0_at c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) _ _ _ _ _ (blk0 m c ⟨0, hn⟩) (blk1 m c ⟨0, hn⟩) (blk2 m c ⟨0, hn⟩) v r).trans ?_
      exact first_tile m c ⟨0, hn⟩ rfl v r
    · show (outsAt0 m c (⟨0, hn⟩ : Fin cfg0.N).val (⟨0, hn⟩ : Fin cfg0.N).isLt).2.2 (ix2 v r) = _
      rw [hA]; dsimp only
      refine (soutA1_at c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) _ _ _ _ _ (blk0 m c ⟨0, hn⟩) (blk1 m c ⟨0, hn⟩) (blk2 m c ⟨0, hn⟩) v r).trans ?_
      rw [simBlk_eq, at8_diag ⟨0, hn⟩ rfl]
  | n + 1, hn => by
    have hN : cfg0.N = 64 := N_0
    have hlt : n + 1 < 64 := lt_of_lt_of_eq hn hN
    obtain ⟨ihD, ihP, -⟩ := holds c n (Nat.lt_of_succ_lt hn)
    by_cases h0 : (n + 1) % 8 = 0
    · -- the first column tile of a later row tile: off the diagonal, the denominator restarts
      have h9 : ¬(n + 1) % 9 = 0 := by omega
      have h7 : ¬(n + 1) % 8 = 7 := by omega
      have hD := outsAt0_D m c ⟨n + 1, hn⟩ h0 h9 h9 h9 h7
      refine ⟨fun v r => ?_, fun hle => absurd hle (by omega), fun h => absurd h h7⟩
      show (outsAt0 m c (⟨n + 1, hn⟩ : Fin cfg0.N).val (⟨n + 1, hn⟩ : Fin cfg0.N).isLt).2.1 (ix2 v r) = _
      rw [hD]; dsimp only [Nat.add_one_sub_one]
      refine (soutD0_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ _ _ _ (blk0 m c ⟨n + 1, hn⟩) (blk1 m c ⟨n + 1, hn⟩) (blk2 m c ⟨n + 1, hn⟩) _ v r).trans ?_
      exact first_tile m c ⟨n + 1, hn⟩ h0 v r
    · by_cases h9 : (n + 1) % 9 = 0
      · by_cases h7 : (n + 1) % 8 = 7
        · -- the diagonal tile that is also the last: extend, pick, write out
          have hF := outsAt0_F m c ⟨n + 1, hn⟩ h0 h9 h9 h9 h7
          have hden : ∀ (v : Fin 3) (r : Fin 1024), (outsAt0 m c n (Nat.lt_of_succ_lt hn)).2.1 (ix2 v r)
              + contribBlk (blk0 m c ⟨n + 1, hn⟩) (blk1 m c ⟨n + 1, hn⟩) (blk2 m c ⟨n + 1, hn⟩) v r
              = ∑ j ∈ Finset.range ((n + 1) % 8 + 1), ∑ cc : Fin 1024, term (hcArr m c) (sArr m c) (hvArr m c) v (rowOf ⟨n + 1, hn⟩ r) (at8 j cc) :=
            fun v r => by rw [ihD v r]; exact next_tile m c n hn h0 v r
          have hpos : ∀ (v : Fin 3) (r : Fin 1024), simBlk (blk0 m c ⟨n + 1, hn⟩) (blk2 m c ⟨n + 1, hn⟩) v r r
              = sim (hcArr m c) (hvArr m c) v (rowOf ⟨n + 1, hn⟩ r) (rowOf ⟨n + 1, hn⟩ r) :=
            fun v r => by rw [simBlk_eq, at8_diag ⟨n + 1, hn⟩ h9]
          refine ⟨fun v r => ?_, fun _ v r => ?_, fun _ v r => ?_⟩
          · show (outsAt0 m c (⟨n + 1, hn⟩ : Fin cfg0.N).val (⟨n + 1, hn⟩ : Fin cfg0.N).isLt).2.1 (ix2 v r) = _
            rw [hF]; dsimp only [Nat.add_one_sub_one]
            refine (soutF0_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ _ _ _ (blk0 m c ⟨n + 1, hn⟩) (blk1 m c ⟨n + 1, hn⟩) (blk2 m c ⟨n + 1, hn⟩) _ v r).trans ?_
            exact hden v r
          · show (outsAt0 m c (⟨n + 1, hn⟩ : Fin cfg0.N).val (⟨n + 1, hn⟩ : Fin cfg0.N).isLt).2.2 (ix2 v r) = _
            rw [hF]; dsimp only [Nat.add_one_sub_one]
            refine (soutF1_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ _ _ _ (blk0 m c ⟨n + 1, hn⟩) (blk1 m c ⟨n + 1, hn⟩) (blk2 m c ⟨n + 1, hn⟩) _ v r).trans ?_
            exact hpos v r
          · show (outsAt0 m c (⟨n + 1, hn⟩ : Fin cfg0.N).val (⟨n + 1, hn⟩ : Fin cfg0.N).isLt).1 (ix2 v r) = _
            rw [hF]; dsimp only [Nat.add_one_sub_one]
            refine (outF3_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ _ _ _ (blk0 m c ⟨n + 1, hn⟩) (blk1 m c ⟨n + 1, hn⟩) (blk2 m c ⟨n + 1, hn⟩) _ v r).trans ?_
            rw [hden v r, hpos v r]
            exact loss_of_full m c ⟨n + 1, hn⟩ h7 v r
        · -- a diagonal tile before the last: extend and pick
          have hE := outsAt0_E m c ⟨n + 1, hn⟩ h0 h9 h9 h9 h7
          refine ⟨fun v r => ?_, fun _ v r => ?_, fun h => absurd h h7⟩
          · show (outsAt0 m c (⟨n + 1, hn⟩ : Fin cfg0.N).val (⟨n + 1, hn⟩ : Fin cfg0.N).isLt).2.1 (ix2 v r) = _
            rw [hE]; dsimp only [Nat.add_one_sub_one]
            refine (soutE0_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ _ _ _ (blk0 m c ⟨n + 1, hn⟩) (blk1 m c ⟨n + 1, hn⟩) (blk2 m c ⟨n + 1, hn⟩) _ v r).trans ?_
            rw [ihD v r]; exact next_tile m c n hn h0 v r
          · show (outsAt0 m c (⟨n + 1, hn⟩ : Fin cfg0.N).val (⟨n + 1, hn⟩ : Fin cfg0.N).isLt).2.2 (ix2 v r) = _
            rw [hE]; dsimp only [Nat.add_one_sub_one]
            refine (soutE1_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ _ _ _ (blk0 m c ⟨n + 1, hn⟩) (blk1 m c ⟨n + 1, hn⟩) (blk2 m c ⟨n + 1, hn⟩) _ v r).trans ?_
            rw [simBlk_eq, at8_diag ⟨n + 1, hn⟩ h9]
      · -- off the diagonal: the positive score is carried
        have hrow : ∀ r : Fin 1024, rowOf ⟨n, Nat.lt_of_succ_lt hn⟩ r = rowOf ⟨n + 1, hn⟩ r := fun r => Fin.ext (by
          show (n / 8) * 1024 + r.val = ((n + 1) / 8) * 1024 + r.val
          omega)
        by_cases h7 : (n + 1) % 8 = 7
        · -- the last column tile: extend and write out
          have hC := outsAt0_C m c ⟨n + 1, hn⟩ h0 h9 h9 h9 h7
          have hden : ∀ (v : Fin 3) (r : Fin 1024), (outsAt0 m c n (Nat.lt_of_succ_lt hn)).2.1 (ix2 v r)
              + contribBlk (blk0 m c ⟨n + 1, hn⟩) (blk1 m c ⟨n + 1, hn⟩) (blk2 m c ⟨n + 1, hn⟩) v r
              = ∑ j ∈ Finset.range ((n + 1) % 8 + 1), ∑ cc : Fin 1024, term (hcArr m c) (sArr m c) (hvArr m c) v (rowOf ⟨n + 1, hn⟩ r) (at8 j cc) :=
            fun v r => by rw [ihD v r]; exact next_tile m c n hn h0 v r
          have hpos : ∀ (v : Fin 3) (r : Fin 1024), (outsAt0 m c n (Nat.lt_of_succ_lt hn)).2.2 (ix2 v r)
              = sim (hcArr m c) (hvArr m c) v (rowOf ⟨n + 1, hn⟩ r) (rowOf ⟨n + 1, hn⟩ r) :=
            fun v r => by rw [ihP (by omega) v r, hrow r]
          refine ⟨fun v r => ?_, fun _ v r => ?_, fun _ v r => ?_⟩
          · show (outsAt0 m c (⟨n + 1, hn⟩ : Fin cfg0.N).val (⟨n + 1, hn⟩ : Fin cfg0.N).isLt).2.1 (ix2 v r) = _
            rw [hC]; dsimp only [Nat.add_one_sub_one]
            refine (soutC0_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ _ _ _ (blk0 m c ⟨n + 1, hn⟩) (blk1 m c ⟨n + 1, hn⟩) (blk2 m c ⟨n + 1, hn⟩) _ _ v r).trans ?_
            exact hden v r
          · show (outsAt0 m c (⟨n + 1, hn⟩ : Fin cfg0.N).val (⟨n + 1, hn⟩ : Fin cfg0.N).isLt).2.2 (ix2 v r) = _
            rw [hC]; dsimp only [Nat.add_one_sub_one]
            exact hpos v r
          · show (outsAt0 m c (⟨n + 1, hn⟩ : Fin cfg0.N).val (⟨n + 1, hn⟩ : Fin cfg0.N).isLt).1 (ix2 v r) = _
            rw [hC]; dsimp only [Nat.add_one_sub_one]
            refine (outC3_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ _ _ _ (blk0 m c ⟨n + 1, hn⟩) (blk1 m c ⟨n + 1, hn⟩) (blk2 m c ⟨n + 1, hn⟩) _ _ v r).trans ?_
            rw [hden v r, hpos v r]
            exact loss_of_full m c ⟨n + 1, hn⟩ h7 v r
        · -- a middle tile: extend only
          have hB := outsAt0_B m c ⟨n + 1, hn⟩ h0 h9 h9 h9 h7
          refine ⟨fun v r => ?_, fun hle v r => ?_, fun h => absurd h h7⟩
          · show (outsAt0 m c (⟨n + 1, hn⟩ : Fin cfg0.N).val (⟨n + 1, hn⟩ : Fin cfg0.N).isLt).2.1 (ix2 v r) = _
            rw [hB]; dsimp only [Nat.add_one_sub_one]
            refine (soutB0_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) _ _ _ _ _ (blk0 m c ⟨n + 1, hn⟩) (blk1 m c ⟨n + 1, hn⟩) (blk2 m c ⟨n + 1, hn⟩) _ _ v r).trans ?_
            rw [ihD v r]; exact next_tile m c n hn h0 v r
          · show (outsAt0 m c (⟨n + 1, hn⟩ : Fin cfg0.N).val (⟨n + 1, hn⟩ : Fin cfg0.N).isLt).2.2 (ix2 v r) = _
            rw [hB]; dsimp only [Nat.add_one_sub_one]
            show (outsAt0 m c n (Nat.lt_of_succ_lt hn)).2.2 (ix2 v r) = _
            rw [ihP (by omega) v r, hrow r]

end Cert.KernelIdeal.Inv

end
-- ==== Proof.KernelRun.lean ====
/-
  The idealized kernel's run, read as a value: the result buffer ends at the mean of the loss array of the normalised
  arguments.

  After the last grid point the result array holds the loss entries (each write-back tile holds its rows' entries); the host
  then takes the mean. The consensus and view arrays the region reads are the host's normalisations of the arguments
  (their re-typing to bf16 changes nothing over the extended reals), and the similarity matrix is the argument itself.
-/
import proofs.«100503_j34299608826247_1_alg».proof.Proof.Gen.KernelIdeal.Frame
import proofs.«100503_j34299608826247_1_alg».proof.Proof.Blocks
import proofs.«100503_j34299608826247_1_alg».proof.Proof.Cover
import proofs.«100503_j34299608826247_1_alg».proof.Proof.HostOps
import proofs.«100503_j34299608826247_1_alg».proof.Proof.Invariant
import proofs.«100503_j34299608826247_1_alg».proof.Proof.Spec
import Idealize.ShloMosaic.Lib.Pipeline.Value

set_option maxRecDepth 16384

noncomputable section

namespace Cert.KernelIdeal.KernelRun

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blk Cert.KernelIdeal.HostOps Cert.Sgcl

variable (m : (ℓ : Loc nD τ sig) → Buf (Elt Ideal) ℓ) (ρ : Dev nD → PrngReg)

/-- The result array after the run is the loss array of the arrays the region read. -/
theorem final (c : Dev nD) : (dats m 0 c).arrAt 3 cfg0.N = loss (hcArr m c) (sArr m c) (hvArr m c) :=
  Cover.final_of m c _ fun t h7 v r => (Inv.holds m c t.val t.isLt).2.2 h7 v r

/-- The consensus array the region reads is the normalised argument. -/
theorem hc_eq (c : Dev nD) : hcArr m c = normC (F := Ideal) (m ((c : Thread nD τ).loc main_arg0)) :=
  V_v5 m c

/-- The views the region reads are the normalised argument. -/
theorem hv_eq (c : Dev nD) : hvArr m c = normV (F := Ideal) (m ((c : Thread nD τ).loc main_arg2)) :=
  V_v11 m c

/-- The similarity matrix the region reads is the argument. -/
theorem s_eq (c : Dev nD) : sArr m c = m ((c : Thread nD τ).loc main_arg1) :=
  V_main_arg1 m c

/-- What the result buffer ends holding, as a function of the arguments. -/
def result (c : Dev nD) : Buf (Elt Ideal) ((c.tc : Thread nD τ).loc main_v14) :=
  meanOf (F := Ideal) (loss (normC (F := Ideal) (m ((c : Thread nD τ).loc main_arg0))) (m ((c : Thread nD τ).loc main_arg1))
    (normV (F := Ideal) (m ((c : Thread nD τ).loc main_arg2))))

/-- The run: every fair execution ends with the result buffer at `result` and the arguments unchanged. -/
theorem run : θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v14 (Pipeline.mem_restRefs_of main_v14 (by decide) (by decide))).trans
        ((tail_v14 m (dats m) c).trans (by rw [final, hc_eq, hv_eq, s_eq]; rfl)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KernelRun

end
-- ==== Proof.RefValue.lean ====
/-
  The reference's loss array is the loss function of its two normalised arrays and the similarity matrix.

  Entry (v, n) of the reference: the diagonal of the transposed product over 0.5, minus the log of the floored row sum
  of `(1 − s[n,m]) · exp(product[v,n,m] / 0.5)`, negated. The product is the views' rows against the consensus rows;
  dividing by 0.5 is doubling; the factors of the product commute; the sum starts from zero; negation is `0 − ·`.
-/
import proofs.«100503_j34299608826247_1_alg».proof.Proof.Gen.ReferenceIdeal.Read
import proofs.«100503_j34299608826247_1_alg».proof.Proof.Spec
import Idealize.ShloMosaic.Lib.Pipeline.Value
import Idealize.ShloMosaic.Lib.ValueIdx
import Idealize.ShloMosaic.Lib.StableHlo.Predicate
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Sgcl

/-- A row number below 8192 is not negative as a signed word. -/
theorem not_neg_word (n : Fin 8192) : IntOp.cmpi .slt (BitVec.ofNat 32 n.val) 0#32 = 0#1 := by
  have h : ¬ (BitVec.ofBool ((BitVec.ofNat 32 n.val).slt (BitVec.ofNat 32 0)) = 1#1) := by
    rw [StableHlo.Predicate.slt_ofNat_iff n.val 0 (by have := n.isLt; omega) (by norm_num)]; omega
  show BitVec.ofBool ((BitVec.ofNat 32 n.val).slt 0#32) = 0#1
  revert h
  generalize (BitVec.ofNat 32 n.val).slt (BitVec.ofNat 32 0) = b
  intro h
  cases b
  · rfl
  · exact absurd rfl h

/-- The first index column, before it is joined: row n holds the word of n (the wrap-around branch is never taken). -/
theorem col0_apply {F : FTy → Type} [FloatOps F] (n : Fin 8192) : val_main_call2_v12 (F := F) (ix2 n (0 : Fin 1)) = BitVec.ofNat 32 n.val := by
  rw [val_main_call2_v12_apply, val_main_call2_v6_apply, val_main_call2_v3_apply, val_main_call2_v0_apply,
    val_main_call2_v2_apply, val_main_call2_c_apply]
  show Scalar.select (IntOp.cmpi .slt (BitVec.ofNat 32 n.val) 0#32) _ _ = _
  rw [not_neg_word, select_zero]

/-- The second index column, before it is joined: row n holds the word of n. -/
theorem col1_apply {F : FTy → Type} [FloatOps F] (n : Fin 8192) : val_main_call2_v13 (F := F) (ix2 n (0 : Fin 1)) = BitVec.ofNat 32 n.val := by
  rw [val_main_call2_v13_apply, val_main_call2_v11_apply, val_main_call2_v8_apply, val_main_call2_v1_apply,
    val_main_call2_v7_apply, val_main_call2_c_1_apply]
  show Scalar.select (IntOp.cmpi .slt (BitVec.ofNat 32 n.val) 0#32) _ _ = _
  rw [not_neg_word, select_zero]

variable {F : FTy → Type} [FloatOps F]

/-- Column 0 of the index array holds the row number. -/
theorem idx_apply0 (n : Fin 8192) : val_main_call2_v14 (F := F) (ix2 n (0 : Fin 2)) = BitVec.ofNat 32 n.val := by
  unfold val_main_call2_v14
  refine (concatenate_pair_apply_left (1 : Fin S8192x2.rank) _ _ concatenates_S8192x1_S8192x1_S8192x2_d1
    (ix2 n (0 : Fin 2)) rfl (ix2 n (0 : Fin 1)) ?_).trans (col0_apply n)
  intro b
  match b with
  | ⟨0, _⟩ => rfl
  | ⟨1, _⟩ => rfl

/-- Column 1 of the index array holds the row number. -/
theorem idx_apply1 (n : Fin 8192) : val_main_call2_v14 (F := F) (ix2 n (1 : Fin 2)) = BitVec.ofNat 32 n.val := by
  unfold val_main_call2_v14
  refine (concatenate_pair_apply_right (1 : Fin S8192x2.rank) _ _ concatenates_S8192x1_S8192x1_S8192x2_d1
    (ix2 n (1 : Fin 2)) rfl rfl (ix2 n (0 : Fin 1)) ?_ ?_).trans (col1_apply n)
  · intro b hb
    match b with
    | ⟨0, _⟩ => rfl
    | ⟨1, _⟩ => exact absurd rfl hb
  · rfl

/-- A row number below 8192, read signed off its word and clamped into the rows, is itself. -/
theorem clamp_word (n : Fin 8192) : min (BitVec.ofNat 32 n.val).toInt.toNat (8192 - 1) = n.val := by
  rw [StableHlo.Predicate.toInt_ofNat_small n.val (by have := n.isLt; omega)]
  have := n.isLt
  simp only [Int.toNat_natCast]
  omega

private abbrev GD : GatherDims S3x8192x8192 S8192x2 S3x8192 := gather_S3x8192x8192_S8192x2_S3x8192_0_12_n_n_12_1_311

/-- The gather reads the diagonal: entry (v, n) is the operand at (v, n, n). -/
theorem diag_apply (x0 : (⟨S8192x128, .f32⟩ : BufTy).Contents (Elt F)) (x2 : (⟨S3x8192x128, .f32⟩ : BufTy).Contents (Elt F))
    (v : Fin 3) (n : Fin 8192) :
    val_main_v12 (F := F) x0 x2 (ix2 v n) = val_main_v11 (F := F) x0 x2 (ix3 v n n) := by
  unfold val_main_v12
  generalize val_main_v11 (F := F) x0 x2 = y
  unfold Host.gather
  congr 1
  funext a
  refine Fin.ext ?_
  match a with
  | ⟨0, _⟩ =>
    show GD.start (ix2 v n) (val_main_call2_v14 (F := F)) 0 + GD.batchCoord (ix2 v n) 0 + GD.offCoord (ix2 v n) 0 = v.val
    rw [GatherDims.batchCoord_eq_zero _ _ _ List.not_mem_nil]
    unfold GatherDims.start GatherDims.offCoord
    rw [dif_neg (by decide), dif_pos (by decide), Nat.zero_add]
    exact congrArg (fun k : Fin 2 => (ix2 v n k).val)
      (by decide : GD.offsetDims[List.idxOf (0 : Fin 3) GD.sKept]'(by decide) = (0 : Fin 2))
  | ⟨1, _⟩ =>
    show GD.start (ix2 v n) (val_main_call2_v14 (F := F)) 1 + GD.batchCoord (ix2 v n) 1 + GD.offCoord (ix2 v n) 1 = n.val
    rw [GatherDims.batchCoord_eq_zero _ _ _ List.not_mem_nil,
      GatherDims.offCoord_eq_zero _ _ _ (by decide)]
    unfold GatherDims.start
    rw [dif_pos (by decide)]
    have hsi : GD.siIdx (ix2 v n) ⟨List.idxOf (1 : Fin 3) GD.startIndexMap, List.idxOf_lt_length_iff.2 (by decide)⟩
        = ix2 n (0 : Fin 2) := by
      funext b; refine Fin.ext ?_
      match b with
      | ⟨0, _⟩ => rfl
      | ⟨1, _⟩ => rfl
    rw [hsi, idx_apply0]
    exact clamp_word n
  | ⟨2, _⟩ =>
    show GD.start (ix2 v n) (val_main_call2_v14 (F := F)) 2 + GD.batchCoord (ix2 v n) 2 + GD.offCoord (ix2 v n) 2 = n.val
    rw [GatherDims.batchCoord_eq_zero _ _ _ List.not_mem_nil,
      GatherDims.offCoord_eq_zero _ _ _ (by decide)]
    unfold GatherDims.start
    rw [dif_pos (by decide)]
    have hsi : GD.siIdx (ix2 v n) ⟨List.idxOf (2 : Fin 3) GD.startIndexMap, List.idxOf_lt_length_iff.2 (by decide)⟩
        = ix2 n (1 : Fin 2) := by
      funext b; refine Fin.ext ?_
      match b with
      | ⟨0, _⟩ => rfl
      | ⟨1, _⟩ => rfl
    rw [hsi, idx_apply1]
    exact clamp_word n

/-- The transposed product at (v, n, m): consensus row n against row m of view v, the factors swapped. -/
theorem prod_apply (x0 : (⟨S8192x128, .f32⟩ : BufTy).Contents (Elt Ideal)) (x2 : (⟨S3x8192x128, .f32⟩ : BufTy).Contents (Elt Ideal))
    (v : Fin 3) (n m : Fin 8192) :
    val_main_v11 (F := Ideal) x0 x2 (ix3 v n m)
      = ∑ d : Fin 128, val_main_v4 (F := Ideal) x0 (ix2 n d) * val_main_v9 (F := Ideal) x2 (ix3 v m d) := by
  rw [val_main_v11_apply, val_main_v10_apply]
  refine Finset.sum_congr rfl fun d _ => ?_
  have el : lidx_main_v10 (idx_main_v11 (ix3 v n m)) d = ix3 v m d :=
    funext fun a => Fin.ext (by match a with | ⟨0, _⟩ => rfl | ⟨1, _⟩ => rfl | ⟨2, _⟩ => rfl)
  have er : ridx_main_v10 (idx_main_v11 (ix3 v n m)) d = ix2 n d :=
    funext fun a => Fin.ext (by match a with | ⟨0, _⟩ => rfl | ⟨1, _⟩ => rfl)
  rw [el, er, mul_comm]

/-- The product over one half is the doubled score. -/
theorem scaled_apply (x0 : (⟨S8192x128, .f32⟩ : BufTy).Contents (Elt Ideal)) (x2 : (⟨S3x8192x128, .f32⟩ : BufTy).Contents (Elt Ideal))
    (v : Fin 3) (n m : Fin 8192) :
    val_main_v18 (F := Ideal) x0 x2 (ix3 v n m) = sim (val_main_v4 (F := Ideal) x0) (val_main_v9 (F := Ideal) x2) v n m := by
  rw [val_main_v18_apply, val_main_v17_apply, val_main_cst_3_apply, Ideal.hostDivf_def, Ideal.ofBits_def, prod_apply, div_half]
  rfl

/-- The diagonal over one half is the doubled score of a row against its own view row. -/
theorem diag_scaled (x0 : (⟨S8192x128, .f32⟩ : BufTy).Contents (Elt Ideal)) (x2 : (⟨S3x8192x128, .f32⟩ : BufTy).Contents (Elt Ideal))
    (v : Fin 3) (n : Fin 8192) :
    val_main_v14 (F := Ideal) x0 x2 (ix2 v n) = sim (val_main_v4 (F := Ideal) x0) (val_main_v9 (F := Ideal) x2) v n n := by
  rw [val_main_v14_apply, val_main_v13_apply, val_main_cst_1_apply, Ideal.hostDivf_def, Ideal.ofBits_def, diag_apply, prod_apply, div_half]
  rfl

/-- The weight at (v, n, m) is one minus the similarity at (n, m), whatever the view. -/
theorem weight_apply (x1 : (⟨S8192x8192, .f32⟩ : BufTy).Contents (Elt Ideal)) (v : Fin 3) (n m : Fin 8192) :
    val_main_v21 (F := Ideal) x1 (ix3 v n m) = one - x1 (ix2 n m) := by
  rw [val_main_v21_apply, val_main_v20_apply, val_main_v16_apply, val_main_v15_apply, val_main_cst_2_apply,
    Ideal.subf_def, Ideal.ofBits_def]
  have e : idx_main_v20 (idx_main_v21 (ix3 v n m)) = ix2 n m :=
    funext fun a => Fin.ext (by match a with | ⟨0, _⟩ => rfl | ⟨1, _⟩ => rfl)
  rw [e]

/-- The row sum at (v, n) is the denominator: it starts from zero and adds the terms of the row. -/
theorem denom_apply (x0 : (⟨S8192x128, .f32⟩ : BufTy).Contents (Elt Ideal)) (x1 : (⟨S8192x8192, .f32⟩ : BufTy).Contents (Elt Ideal))
    (x2 : (⟨S3x8192x128, .f32⟩ : BufTy).Contents (Elt Ideal)) (v : Fin 3) (n : Fin 8192) :
    val_main_v23 (F := Ideal) x0 x1 x2 (ix2 v n)
      = ∑ m : Fin 8192, term (val_main_v4 (F := Ideal) x0) x1 (val_main_v9 (F := Ideal) x2) v n m := by
  rw [val_main_v23_apply, val_main_cst_4_apply, Ideal.ofBits_def, Ideal.ofBits_zero_f32, zero_add]
  refine Finset.sum_congr rfl fun m _ => ?_
  have e : idx_main_v23 (ix2 v n) m = ix3 v n m :=
    funext fun a => Fin.ext (by match a with | ⟨0, _⟩ => rfl | ⟨1, _⟩ => rfl | ⟨2, _⟩ => rfl)
  rw [e, val_main_v22_apply, val_main_v19_apply, Ideal.mulf_def, Ideal.hostUnary_exp_def, weight_apply, scaled_apply]
  rfl

/-- The reference's loss array (its negated difference, before the final mean) is `loss` of its normalised arrays. -/
theorem loss_eq (x0 : (⟨S8192x128, .f32⟩ : BufTy).Contents (Elt Ideal)) (x1 : (⟨S8192x8192, .f32⟩ : BufTy).Contents (Elt Ideal))
    (x2 : (⟨S3x8192x128, .f32⟩ : BufTy).Contents (Elt Ideal)) :
    val_main_v28 (F := Ideal) x0 x1 x2 = loss (val_main_v4 (F := Ideal) x0) x1 (val_main_v9 (F := Ideal) x2) := by
  funext i
  obtain ⟨v, n, rfl⟩ : ∃ (v : Fin 3) (n : Fin 8192), i = ix2 v n := ⟨i 0, i 1, eq_ix2 i⟩
  rw [val_main_v28_apply, val_main_v27_apply, val_main_v26_apply, val_main_v25_apply, val_main_v24_apply,
    val_main_cst_5_apply, Ideal.hostNegf_def, Ideal.negf_def, Ideal.subf_def, Ideal.hostUnary_log_def,
    Ideal.maximumf_def, Ideal.ofBits_def, denom_apply, diag_scaled]
  unfold loss lossOf
  rw [zero_sub]

end Cert.ReferenceIdeal.RefValue

end
-- ==== Proof.lean ====
/-
  The certificate of the contrastive-loss kernel against its jnp reference.

  Both programs normalise the consensus rows and every view's rows on the host, and end with the mean of a [3, 8192]
  array of loss entries. For a consensus row n and a view v the entry is
  `0 − (score v n n − log (max (∑_m (1 − s[n,m]) · exp (score v n m)) 1e-9))`, the score twice the inner product of the
  normalised rows. The reference computes every score at once, takes the diagonal with a gather and sums each row over all
  8192 columns; the kernel walks an 8 × 8 grid of 1024-tiles, carrying each row's denominator across the column tiles in
  a scratch accumulator (reset at the first column tile), picking the positive score at the diagonal tile, and writing
  the loss entries at the last column tile. Over the extended reals the two agree: a sum over the columns is the sum over
  the tiles of each tile's sum, dividing by 0.5 is doubling, the factors of a product commute, and a format change is the
  identity. The word-level kernel's and both idealized programs' frames are the generated ones; the ideal pass rewrote
  nothing.
-/
import proofs.«100503_j34299608826247_1_alg».proof.Defs
import proofs.«100503_j34299608826247_1_alg».proof.Proof.Gen.Kernel
import proofs.«100503_j34299608826247_1_alg».proof.Proof.Gen.Kernel.Frame
import proofs.«100503_j34299608826247_1_alg».proof.Proof.Gen.KernelIdeal
import proofs.«100503_j34299608826247_1_alg».proof.Proof.Gen.KernelIdeal.Frame
import proofs.«100503_j34299608826247_1_alg».proof.Proof.Gen.ReferenceIdeal
import proofs.«100503_j34299608826247_1_alg».proof.Proof.Gen.Pre_finite_inputs
import proofs.«100503_j34299608826247_1_alg».proof.Proof.Gen.ReferenceIdeal.Run
import proofs.«100503_j34299608826247_1_alg».proof.Proof.Gen.ReferenceIdeal.Read
import proofs.«100503_j34299608826247_1_alg».proof.Proof.KernelRun
import proofs.«100503_j34299608826247_1_alg».proof.Proof.RefValue
import proofs.«100503_j34299608826247_1_alg».proof.Proof.HostOps
import proofs.«100503_j34299608826247_1_alg».proof.Proof.Spec
import Idealize.ShloMosaic.Adequacy
import Idealize.ShloMosaic.Init

noncomputable section

namespace Cert.Proof

open Idealize.ShloMosaic Idealize.ShloMosaic.TcCoe Idealize.SL.Sem

/-- The reference's result is the mean of its loss array. -/
theorem ref_mean (x0 : (⟨Cert.ReferenceIdeal.S8192x128, .f32⟩ : BufTy).Contents (Elt Ideal))
    (x1 : (⟨Cert.ReferenceIdeal.S8192x8192, .f32⟩ : BufTy).Contents (Elt Ideal))
    (x2 : (⟨Cert.ReferenceIdeal.S3x8192x128, .f32⟩ : BufTy).Contents (Elt Ideal)) :
    Cert.ReferenceIdeal.Read.val_main_v30 (F := Ideal) x0 x1 x2
      = Cert.KernelIdeal.HostOps.meanOf (F := Ideal) (Cert.ReferenceIdeal.Read.val_main_v28 (F := Ideal) x0 x1 x2) := rfl

/-- The two programs normalise the consensus rows by one function. -/
theorem normC_eq (x0 : (⟨Cert.ReferenceIdeal.S8192x128, .f32⟩ : BufTy).Contents (Elt Ideal)) :
    Cert.ReferenceIdeal.Read.val_main_v4 (F := Ideal) x0 = Cert.KernelIdeal.HostOps.normC (F := Ideal) x0 := rfl

/-- The two programs normalise the views' rows by one function. -/
theorem normV_eq (x2 : (⟨Cert.ReferenceIdeal.S3x8192x128, .f32⟩ : BufTy).Contents (Elt Ideal)) :
    Cert.ReferenceIdeal.Read.val_main_v9 (F := Ideal) x2 = Cert.KernelIdeal.HostOps.normV (F := Ideal) x2 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the mean of the loss array of the normalised arguments. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2, ref_mean,
    Cert.ReferenceIdeal.RefValue.loss_eq, normC_eq, normV_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
